-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v32) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x8192 : Shape := ⟨3, ![4, 2048, 8192]⟩
abbrev S4x8192x4 : Shape := ⟨3, ![4, 8192, 4]⟩
abbrev S8192x4 : Shape := ⟨2, ![8192, 4]⟩
abbrev S_ : Shape := ⟨0, ![]⟩

class Facts : Prop where
  bcast_S_S4x2048x8192 : S_.BroadcastsInDim S4x2048x8192 (![] : Fin 0 → Fin S4x2048x8192.rank)
  reducesTo_S4x2048x8192_S_d0_1_2 : S4x2048x8192.ReducesTo [0, 1, 2] S_
  h_S_ : 0 < S_.numel
  bcast_S_S4x8192x4 : S_.BroadcastsInDim S4x8192x4 (![] : Fin 0 → Fin S4x8192x4.rank)
  reducesTo_S4x8192x4_S_d0_1_2 : S4x8192x4.ReducesTo [0, 1, 2] S_
  bcast_S_S8192x4 : S_.BroadcastsInDim S8192x4 (![] : Fin 0 → Fin S8192x4.rank)
  reducesTo_S8192x4_S_d0_1 : S8192x4.ReducesTo [0, 1] S_

variable [Facts]

def fn {F : FTy → Type} [FloatOps F] (main_arg0 : FVec F S4x2048x8192 .f32) (main_arg1 : FVec F S4x8192x4 .f32) (main_arg2 : FVec F S8192x4 .f32) : IVec S_ 1 :=
  let main_v0 : FVec F S4x2048x8192 .f32 := Host.absf main_arg0
  let main_cst : FVec F S_ .f32 := constant S_ .f32 0x7F800000#32
  let main_v1 : FVec F S4x2048x8192 .f32 := broadcastInDim S4x2048x8192 ![] bcast_S_S4x2048x8192 main_cst
  let main_v2 : IVec S4x2048x8192 1 := cmpf .olt main_v0 main_v1
  let main_c : IVec S_ 1 := constantI S_ 1 1#1
  let main_v3 : IVec S_ 1 := (fun x v => Host.reduce IntOp.andi x v reducesTo_S4x2048x8192_S_d0_1_2 h_S_) main_v2 main_c
  let main_v4 : FVec F S4x8192x4 .f32 := Host.absf main_arg1
  let main_cst_0 : FVec F S_ .f32 := constant S_ .f32 0x7F800000#32
  let main_v5 : FVec F S4x8192x4 .f32 := broadcastInDim S4x8192x4 ![] bcast_S_S4x8192x4 main_cst_0
  let main_v6 : IVec S4x8192x4 1 := cmpf .olt main_v4 main_v5
  let main_c_1 : IVec S_ 1 := constantI S_ 1 1#1
  let main_v7 : IVec S_ 1 := (fun x v => Host.reduce IntOp.andi x v reducesTo_S4x8192x4_S_d0_1_2 h_S_) main_v6 main_c_1
  let main_v8 : IVec S_ 1 := andi main_v3 main_v7
  let main_v9 : FVec F S8192x4 .f32 := Host.absf main_arg2
  let main_cst_2 : FVec F S_ .f32 := constant S_ .f32 0x7F800000#32
  let main_v10 : FVec F S8192x4 .f32 := broadcastInDim S8192x4 ![] bcast_S_S8192x4 main_cst_2
  let main_v11 : IVec S8192x4 1 := cmpf .olt main_v9 main_v10
  let main_c_3 : IVec S_ 1 := constantI S_ 1 1#1
  let main_v12 : IVec S_ 1 := (fun x v => Host.reduce IntOp.andi x v reducesTo_S8192x4_S_d0_1 h_S_) main_v11 main_c_3
  let main_v13 : IVec S_ 1 := andi main_v8 main_v12
  main_v13
-- ==== Kernel.lean ====
abbrev S4x2048x8192 : Shape := ⟨3, ![4, 2048, 8192]⟩
abbrev S4x8192x4 : Shape := ⟨3, ![4, 8192, 4]⟩
abbrev S8192x4 : Shape := ⟨2, ![8192, 4]⟩
abbrev S4x2048x2048 : Shape := ⟨3, ![4, 2048, 2048]⟩
abbrev S4x2048x4096 : Shape := ⟨3, ![4, 2048, 4096]⟩
abbrev S1x256x8192 : Shape := ⟨3, ![1, 256, 8192]⟩
abbrev S1x8192x4 : Shape := ⟨3, ![1, 8192, 4]⟩
abbrev S1x256x2048 : Shape := ⟨3, ![1, 256, 2048]⟩
abbrev S1x256x4096 : Shape := ⟨3, ![1, 256, 4096]⟩
abbrev S8x8192 : Shape := ⟨2, ![8, 8192]⟩
abbrev S8192x3 : Shape := ⟨2, ![8192, 3]⟩
abbrev S3x8192 : Shape := ⟨2, ![3, 8192]⟩
abbrev S256x8192 : Shape := ⟨2, ![256, 8192]⟩
abbrev S259x8192 : Shape := ⟨2, ![259, 8192]⟩
abbrev S8192x1 : Shape := ⟨2, ![8192, 1]⟩
abbrev S8192 : Shape := ⟨1, ![8192]⟩
abbrev S1x8192 : Shape := ⟨2, ![1, 8192]⟩
abbrev S256x2048 : Shape := ⟨2, ![256, 2048]⟩
abbrev S256x4096 : Shape := ⟨2, ![256, 4096]⟩
abbrev S4x8192 : Shape := ⟨2, ![4, 8192]⟩

abbrev nBuf : Space → Nat
  | .hbm => 7
  | .vmem => 14
  | .smem => 0
  | _ => 0

abbrev bufTy : (tb : Table) → Fin (tcTables nBuf tb) → BufTy
  | .hbm, ⟨0, _⟩ => ⟨S4x2048x8192, .f32⟩
  | .hbm, ⟨1, _⟩ => ⟨S4x8192x4, .f32⟩
  | .hbm, ⟨2, _⟩ => ⟨S8192x4, .f32⟩
  | .hbm, ⟨3, _⟩ => ⟨S4x2048x2048, .f32⟩
  | .hbm, ⟨4, _⟩ => ⟨S4x2048x2048, .f32⟩
  | .hbm, ⟨5, _⟩ => ⟨S4x2048x4096, .f32⟩
  | .hbm, ⟨6, _⟩ => ⟨S4x8192x4, .f32⟩
  | .local _ .vmem, ⟨0, _⟩ => ⟨S1x256x8192, .f32⟩
  | .local _ .vmem, ⟨1, _⟩ => ⟨S1x256x8192, .f32⟩
  | .local _ .vmem, ⟨2, _⟩ => ⟨S1x8192x4, .f32⟩
  | .local _ .vmem, ⟨3, _⟩ => ⟨S1x8192x4, .f32⟩
  | .local _ .vmem, ⟨4, _⟩ => ⟨S8192x4, .f32⟩
  | .local _ .vmem, ⟨5, _⟩ => ⟨S1x256x2048, .f32⟩
  | .local _ .vmem, ⟨6, _⟩ => ⟨S1x256x2048, .f32⟩
  | .local _ .vmem, ⟨7, _⟩ => ⟨S1x256x2048, .f32⟩
  | .local _ .vmem, ⟨8, _⟩ => ⟨S1x256x2048, .f32⟩
  | .local _ .vmem, ⟨9, _⟩ => ⟨S1x256x4096, .f32⟩
  | .local _ .vmem, ⟨10, _⟩ => ⟨S1x256x4096, .f32⟩
  | .local _ .vmem, ⟨11, _⟩ => ⟨S1x8192x4, .f32⟩
  | .local _ .vmem, ⟨12, _⟩ => ⟨S1x8192x4, .f32⟩
  | .local _ .vmem, ⟨13, _⟩ => ⟨S8x8192, .f32⟩
  | _, _ => ⟨S4x2048x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 8], ![false, false]⟩

def k0_cond2 (i : grid0.Coords) : BitVec 1 :=
  let arg1 : BitVec 32 := BitVec.ofNat 32 (i 1).val
  let c7_i32 : BitVec 32 := 7#32
  let v53 : BitVec 1 := Scalar.cmpi .eq arg1 c7_i32
  let v54 : BitVec 32 := Scalar.extui v53
  let c0_i32_18 : BitVec 32 := 0#32
  let v55 : BitVec 1 := Scalar.cmpi .ne v54 c0_i32_18
  v55

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S8192x4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x4 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

class Facts₀ : Prop where
  inb_S1x8192x4_S1x8192x4_0_0_0 : ∀ a, (![0, 0, 0] : Fin 3 → Nat) a + S1x8192x4.size a ≤ S1x8192x4.size a
  h_S1x8192x4 : 0 < S1x8192x4.numel
  shapeCasts_S1x8192x4_S8192x4 : S1x8192x4.ShapeCasts S8192x4
  slices_S8192x4_o0_1_S8192x3 : S8192x4.Slices ![0, 1] S8192x3
  transposes_S8192x3_p1_0_S3x8192 : S8192x3.Transposes [1, 0] S3x8192
  inb_S8x8192_S3x8192_0_0 : ∀ a, (![0, 0] : Fin 2 → Nat) a + S3x8192.size a ≤ S8x8192.size a
  h_S3x8192 : 0 < S3x8192.numel
  shapeCasts_S3x8192_S3x8192 : S3x8192.ShapeCasts S3x8192
  inb_S1x256x8192_S1x256x8192_0_0_0 : ∀ a, (![0, 0, 0] : Fin 3 → Nat) a + S1x256x8192.size a ≤ S1x256x8192.size a
  h_S1x256x8192 : 0 < S1x256x8192.numel
  shapeCasts_S1x256x8192_S256x8192 : S1x256x8192.ShapeCasts S256x8192
  concatenates_S3x8192_S256x8192_S259x8192_d0 : Shape.Concatenates [S3x8192, S256x8192] S259x8192 0
  inb_S8192x4_S8192x4_0_0 : ∀ a, (![0, 0] : Fin 2 → Nat) a + S8192x4.size a ≤ S8192x4.size a
  h_S8192x4 : 0 < S8192x4.numel
  slices_S8192x4_o0_0_S8192x1 : S8192x4.Slices ![0, 0] S8192x1
  shapeCasts_S8192x1_S8192 : S8192x1.ShapeCasts S8192
  shapeCasts_S8192_S1x8192 : S8192.ShapeCasts S1x8192
  slices_S259x8192_o0_0_S256x8192 : S259x8192.Slices ![0, 0] S256x8192
  broadcasts_S1x8192_S256x8192 : S1x8192.Broadcasts S256x8192
  slices_S8192x4_o0_1_S8192x1 : S8192x4.Slices ![0, 1] S8192x1
  slices_S259x8192_o1_0_S256x8192 : S259x8192.Slices ![1, 0] S256x8192
  slices_S8192x4_o0_2_S8192x1 : S8192x4.Slices ![0, 2] S8192x1
  slices_S259x8192_o2_0_S256x8192 : S259x8192.Slices ![2, 0] S256x8192
  slices_S8192x4_o0_3_S8192x1 : S8192x4.Slices ![0, 3] S8192x1
  slices_S259x8192_o3_0_S256x8192 : S259x8192.Slices ![3, 0] S256x8192
  slices_S256x8192_o0_0_S256x2048 : S256x8192.Slices ![0, 0] S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  slices_S256x8192_o0_2048_S256x2048 : S256x8192.Slices ![0, 2048] S256x2048
  slices_S256x8192_o0_4096_S256x4096 : S256x8192.Slices ![0, 4096] S256x4096
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  shapeCasts_S256x4096_S1x256x4096 : S256x4096.ShapeCasts S1x256x4096
  slices_S256x8192_o253_0_S3x8192 : S256x8192.Slices ![253, 0] S3x8192
  slices_S256x8192_o252_0_S4x8192 : S256x8192.Slices ![252, 0] S4x8192
  transposes_S4x8192_p1_0_S8192x4 : S4x8192.Transposes [1, 0] S8192x4
  shapeCasts_S8192x4_S1x8192x4 : S8192x4.ShapeCasts S1x8192x4
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x8192.size a ≤ S4x2048x8192.size a
  hwx0_0 : ∀ i : grid0.Coords, EltTy.bits .f32 = 32 ∨ (Rect.block (s := S4x2048x8192) S1x256x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x8192x4.size a ≤ S4x8192x4.size a
  hwx0_1 : ∀ i : grid0.Coords, EltTy.bits .f32 = 32 ∨ (Rect.block (s := S4x8192x4) S1x8192x4.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x4.size a ≤ S8192x4.size a
  hwx0_2 : ∀ i : grid0.Coords, EltTy.bits .f32 = 32 ∨ (Rect.block (s := S8192x4) S8192x4.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x2048.size a ≤ S4x2048x2048.size a
  hwx0_3 : ∀ i : grid0.Coords, EltTy.bits .f32 = 32 ∨ (Rect.block (s := S4x2048x2048) S1x256x2048.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x2048.size a ≤ S4x2048x2048.size a
  hwx0_4 : ∀ i : grid0.Coords, EltTy.bits .f32 = 32 ∨ (Rect.block (s := S4x2048x2048) S1x256x2048.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x4096.size a ≤ S4x2048x4096.size a
  hwx0_5 : ∀ i : grid0.Coords, EltTy.bits .f32 = 32 ∨ (Rect.block (s := S4x2048x4096) S1x256x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x8192x4.size a ≤ S4x8192x4.size a
  hwx0_6 : ∀ i : grid0.Coords, EltTy.bits .f32 = 32 ∨ (Rect.block (s := S4x8192x4) S1x8192x4.size (cc0_transform_6 i) (hinb0_6 i)).WholeWords (EltTy.packing .f32)

variable [Facts₀]

abbrev win0_0 : Pipeline.Window sig grid0 :=
  Pipeline.Window.ofSpec (Memref.whole main_arg0) S1x256x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x8192x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S8192x4.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x256x2048.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x256x2048.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_2) S1x256x4096.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v0_3) S1x8192x4.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4x2048x8192 : Shape := ⟨3, ![4, 2048, 8192]⟩
abbrev S4x8192x4 : Shape := ⟨3, ![4, 8192, 4]⟩
abbrev S8192x4 : Shape := ⟨2, ![8192, 4]⟩
abbrev S4x8192x3 : Shape := ⟨3, ![4, 8192, 3]⟩
abbrev S4x3x8192 : Shape := ⟨3, ![4, 3, 8192]⟩
abbrev S4x2051x8192 : Shape := ⟨3, ![4, 2051, 8192]⟩
abbrev S8192x1 : Shape := ⟨2, ![8192, 1]⟩
abbrev S8192 : Shape := ⟨1, ![8192]⟩
abbrev S1x1x8192 : Shape := ⟨3, ![1, 1, 8192]⟩
abbrev S_ : Shape := ⟨0, ![]⟩
abbrev S4x4x8192 : Shape := ⟨3, ![4, 4, 8192]⟩
abbrev S4x2048x2048 : Shape := ⟨3, ![4, 2048, 2048]⟩
abbrev S4x2048x4096 : Shape := ⟨3, ![4, 2048, 4096]⟩

abbrev nBuf : Space → Nat
  | .hbm => 47
  | .vmem => 0
  | .smem => 0
  | _ => 0

abbrev bufTy : (tb : Table) → Fin (tcTables nBuf tb) → BufTy
  | .hbm, ⟨0, _⟩ => ⟨S4x2048x8192, .f32⟩
  | .hbm, ⟨1, _⟩ => ⟨S4x8192x4, .f32⟩
  | .hbm, ⟨2, _⟩ => ⟨S8192x4, .f32⟩
  | .hbm, ⟨3, _⟩ => ⟨S4x8192x3, .f32⟩
  | .hbm, ⟨4, _⟩ => ⟨S4x3x8192, .f32⟩
  | .hbm, ⟨5, _⟩ => ⟨S4x2051x8192, .f32⟩
  | .hbm, ⟨6, _⟩ => ⟨S8192x1, .f32⟩
  | .hbm, ⟨7, _⟩ => ⟨S8192, .f32⟩
  | .hbm, ⟨8, _⟩ => ⟨S4x2048x8192, .f32⟩
  | .hbm, ⟨9, _⟩ => ⟨S1x1x8192, .f32⟩
  | .hbm, ⟨10, _⟩ => ⟨S4x2048x8192, .f32⟩
  | .hbm, ⟨11, _⟩ => ⟨S4x2048x8192, .f32⟩
  | .hbm, ⟨12, _⟩ => ⟨S8192x1, .f32⟩
  | .hbm, ⟨13, _⟩ => ⟨S8192, .f32⟩
  | .hbm, ⟨14, _⟩ => ⟨S4x2048x8192, .f32⟩
  | .hbm, ⟨15, _⟩ => ⟨S1x1x8192, .f32⟩
  | .hbm, ⟨16, _⟩ => ⟨S4x2048x8192, .f32⟩
  | .hbm, ⟨17, _⟩ => ⟨S4x2048x8192, .f32⟩
  | .hbm, ⟨18, _⟩ => ⟨S4x2048x8192, .f32⟩
  | .hbm, ⟨19, _⟩ => ⟨S8192x1, .f32⟩
  | .hbm, ⟨20, _⟩ => ⟨S8192, .f32⟩
  | .hbm, ⟨21, _⟩ => ⟨S4x2048x8192, .f32⟩
  | .hbm, ⟨22, _⟩ => ⟨S1x1x8192, .f32⟩
  | .hbm, ⟨23, _⟩ => ⟨S4x2048x8192, .f32⟩
  | .hbm, ⟨24, _⟩ => ⟨S4x2048x8192, .f32⟩
  | .hbm, ⟨25, _⟩ => ⟨S4x2048x8192, .f32⟩
  | .hbm, ⟨26, _⟩ => ⟨S8192x1, .f32⟩
  | .hbm, ⟨27, _⟩ => ⟨S8192, .f32⟩
  | .hbm, ⟨28, _⟩ => ⟨S4x2048x8192, .f32⟩
  | .hbm, ⟨29, _⟩ => ⟨S1x1x8192, .f32⟩
  | .hbm, ⟨30, _⟩ => ⟨S4x2048x8192, .f32⟩
  | .hbm, ⟨31, _⟩ => ⟨S4x2048x8192, .f32⟩
  | .hbm, ⟨32, _⟩ => ⟨S4x2048x8192, .f32⟩
  | .hbm, ⟨33, _⟩ => ⟨S4x2048x8192, .f32⟩
  | .hbm, ⟨34, _⟩ => ⟨S4x2048x8192, .f32⟩
  | .hbm, ⟨35, _⟩ => ⟨S_, .f32⟩
  | .hbm, ⟨36, _⟩ => ⟨S4x2048x8192, .f32⟩
  | .hbm, ⟨37, _⟩ => ⟨S4x2048x8192, .f32⟩
  | .hbm, ⟨38, _⟩ => ⟨S_, .f32⟩
  | .hbm, ⟨39, _⟩ => ⟨S4x2048x8192, .f32⟩
  | .hbm, ⟨40, _⟩ => ⟨S4x2048x8192, .f32⟩
  | .hbm, ⟨41, _⟩ => ⟨S4x2048x8192, .f32⟩
  | .hbm, ⟨42, _⟩ => ⟨S4x4x8192, .f32⟩
  | .hbm, ⟨43, _⟩ => ⟨S4x8192x4, .f32⟩
  | .hbm, ⟨44, _⟩ => ⟨S4x2048x2048, .f32⟩
  | .hbm, ⟨45, _⟩ => ⟨S4x2048x2048, .f32⟩
  | .hbm, ⟨46, _⟩ => ⟨S4x2048x4096, .f32⟩
  | _, _ => ⟨S4x2048x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩
abbrev main_v22 : Ref sig .tc := ⟨.hbm, 25, rfl⟩
abbrev main_v23 : Ref sig .tc := ⟨.hbm, 26, rfl⟩
abbrev main_v24 : Ref sig .tc := ⟨.hbm, 27, rfl⟩
abbrev main_v25 : Ref sig .tc := ⟨.hbm, 28, rfl⟩
abbrev main_v26 : Ref sig .tc := ⟨.hbm, 29, rfl⟩
abbrev main_v27 : Ref sig .tc := ⟨.hbm, 30, rfl⟩
abbrev main_v28 : Ref sig .tc := ⟨.hbm, 31, rfl⟩
abbrev main_v29 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_call0_v5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩

abbrev nD : Nat := 1
abbrev τ : Topo := Topo.v7x

variable {F : FTy → Type} [FloatOps F]

class Facts₀ : Prop where
  slices_S4x8192x4_S4x8192x3_0_0_1 : S4x8192x4.Slices ![0, 0, 1] S4x8192x3
  transposes_S4x8192x3_S4x3x8192_0_2_1 : S4x8192x3.Transposes [0, 2, 1] S4x3x8192
  concatenates_S4x3x8192_S4x2048x8192_S4x2051x8192_d1 : Shape.Concatenates [S4x3x8192, S4x2048x8192] S4x2051x8192 1
  slices_S8192x4_S8192x1_0_0 : S8192x4.Slices ![0, 0] S8192x1
  shapeCasts_S8192x1_S8192 : S8192x1.ShapeCasts S8192
  slices_S4x2051x8192_S4x2048x8192_0_0_0 : S4x2051x8192.Slices ![0, 0, 0] S4x2048x8192
  bcast_S8192_S1x1x8192_2 : S8192.BroadcastsInDim S1x1x8192 (![2] : Fin 1 → Fin S1x1x8192.rank)
  bcast_S1x1x8192_S4x2048x8192_0_1_2 : S1x1x8192.BroadcastsInDim S4x2048x8192 (![0, 1, 2] : Fin 3 → Fin S4x2048x8192.rank)
  slices_S8192x4_S8192x1_0_1 : S8192x4.Slices ![0, 1] S8192x1
  slices_S4x2051x8192_S4x2048x8192_0_1_0 : S4x2051x8192.Slices ![0, 1, 0] S4x2048x8192
  slices_S8192x4_S8192x1_0_2 : S8192x4.Slices ![0, 2] S8192x1
  slices_S4x2051x8192_S4x2048x8192_0_2_0 : S4x2051x8192.Slices ![0, 2, 0] S4x2048x8192
  slices_S8192x4_S8192x1_0_3 : S8192x4.Slices ![0, 3] S8192x1
  slices_S4x2051x8192_S4x2048x8192_0_3_0 : S4x2051x8192.Slices ![0, 3, 0] S4x2048x8192
  bcast_S_S4x2048x8192 : S_.BroadcastsInDim S4x2048x8192 (![] : Fin 0 → Fin S4x2048x8192.rank)
  slices_S4x2051x8192_S4x4x8192_0_2047_0 : S4x2051x8192.Slices ![0, 2047, 0] S4x4x8192
  transposes_S4x4x8192_S4x8192x4_0_2_1 : S4x4x8192.Transposes [0, 2, 1] S4x8192x4
  slices_S4x2048x8192_S4x2048x2048_0_0_0 : S4x2048x8192.Slices ![0, 0, 0] S4x2048x2048
  slices_S4x2048x8192_S4x2048x2048_0_0_2048 : S4x2048x8192.Slices ![0, 0, 2048] S4x2048x2048
  slices_S4x2048x8192_S4x2048x4096_0_0_4096 : S4x2048x8192.Slices ![0, 0, 4096] S4x2048x4096

variable [Facts₀]

class Facts : Prop extends Facts₀ where

variable [Facts]
-- ==== Proof.BitsShared.lean ====
/-
  What the three runs of the kernel body share. The grid has 32 points, t = 8·b + l: batch b, sequence
  tile l. The body branches twice on l alone: at l = 0 it first fills rows 0..2 of its carry buffer from
  the cache block; at l = 7 it also stores the new cache block. So a point is in one of three cases:
  l = 0, 0 < l < 7, l = 7. The two conditions are decided over the grid in closed form (t mod 8).
  The new-cache window is idle, and not written back, wherever l ≠ 7; every other window is live at
  every point. The carry buffer is the kernel's one scratch operand: the region's invariant holds it
  at some contents, beside the generator register.
-/
import proofs.«173514_j4612794876168_1_alg».proof.Proof.Gen.Kernel.Frame
import proofs.«173514_j4612794876168_1_alg».proof.Proof.Gen.Kernel.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The two branch conditions, over the grid -/

/-- The first conditional's condition (sequence tile 0), from the grid coordinates. -/
abbrev cond0_0 (i : grid0.Coords) : Prop := (Scalar.cmpi .ne (Scalar.extui (Scalar.cmpi .eq (BitVec.ofNat 32 (i 1).val) 0#32)) 0#32) = 1#1
/-- It holds exactly at the points t with t mod 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (sequence tile 7), from the grid coordinates. -/
abbrev cond0_1 (i : grid0.Coords) : Prop := k0_cond2 i = 1#1
/-- It holds exactly at the points t with t mod 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from sequence tile 7 the new-cache window is idle … -/
theorem idleAt0_6 : ∀ t : Fin cfg0.N, ¬cond0_1 (grid0.coords t) → cfg0.idle 6 (grid0.coords t) = true := by decide +kernel
/-- … and is not written back there. -/
theorem noFlush0_6 : ∀ t : Fin cfg0.N, ¬cond0_1 (grid0.coords t) → (cfg0.win 6).flush t = false := by decide +kernel
/-- At sequence tile 7 it is live. -/
theorem liveAt0_6 : ∀ t : Fin cfg0.N, cond0_1 (grid0.coords t) → cfg0.idle 6 (grid0.coords t) = false := by decide +kernel

/-! ## The staging memrefs at a point, and the carry buffer -/

abbrev ms0_0 (t : Fin cfg0.N) : Memref sig .tc .vmem S1x256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8192x4 .f32 := win0_6.stage (cfg0.slots t 6)
abbrev hs0_6 (t : Fin cfg0.N) : (ms0_6 t).IsWhole := hstage0_6 ((cfg0.slots t 6).cast nbuf0_6)
/-- The carry buffer: a whole scoped buffer of the kernel's own. -/
abbrev scM0_0 : Memref sig .tc .vmem S8x8192 .f32 := Memref.whole cc0_scratch0

/-- The class invariant opened: the carry buffer owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Reading back what one store left -/

/-- Rows 0, 1, 2 of the carry buffer's contents: what a load through that rectangle reads. -/
abbrev rows3 (d : Vec F S8x8192 .f32) : Vec F S3x8192 .f32 :=
  View.ld d (Rect.unit (s := S8x8192) ![0, 0] S3x8192.size inb_S8x8192_S3x8192_0_0)

/-- One store through the whole-shape rectangle at zero offsets reads back as its payload, whatever the
    buffer held before. -/
theorem read_writes_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h; exact View.read_writes_whole v f w

/-- A load through the rectangle one store went through reads that store's payload, whatever else the buffer holds. -/
theorem ld_read_writes_same {sig' : RefSig} {κ : Kind} {sp : Space} {S : Shape} {e : EltTy}
    (v : View sig' κ sp S e) (f : v.ty.Contents (Elt F)) (r : Rect S) (w : r.shape.Idx → Elt F e) :
    View.ld (v.read (Elt F) (v.writes (Elt F) f [(⟨r, w⟩ : View.Piece (Elt F) S e)])) r = w :=
  funext fun x => View.read_writes_cons_emb v f r w [] x

/-- The zero offsets of a rank-2 and of a rank-3 rectangle, as functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through the rectangle the NEWEST store went through reads that store's payload, whatever the
    earlier stores and the buffer's earlier contents were. -/
theorem ld_read_writes_cons {sig' : RefSig} {κ : Kind} {sp : Space} {S : Shape} {e : EltTy}
    (v : View sig' κ sp S e) (f : v.ty.Contents (Elt F)) (r : Rect S) (w : r.shape.Idx → Elt F e)
    (L : List (View.Piece (Elt F) S e)) :
    View.ld (v.read (Elt F) (v.writes (Elt F) f ((⟨r, w⟩ : View.Piece (Elt F) S e) :: L))) r = w :=
  funext fun x => View.read_writes_cons_emb v f r w L x

/-- What a load through a rectangle reads right after one store through the same rectangle: the store's payload. -/
theorem readCov_same {sig' : RefSig} {κ : Kind} {sp : Space} {S : Shape} {e : EltTy}
    (v : View sig' κ sp S e) (r : Rect S) (w : r.shape.Idx → Elt F e) :
    v.readCov [(⟨r, w⟩ : View.Piece (Elt F) S e)] r.toLoadRect = w :=
  ld_read_writes_same v v.junk r w

end Cert.Kernel.Body

end
-- ==== Proof.BitsRunB.lean ====
/-
  The kernel body at a point of a middle sequence tile (0 < l < 7): neither conditional is taken. The body
  finds its three input blocks, and the carry buffer at contents whose rows 0..2 are p, the three rows before
  the tile. It leaves q, k, v's blocks at the activated four-tap sums of the tile (the channel bands of one
  256 × 8192 array computed from the tile, p and the taps), the new-cache block as it found it, and the carry
  buffer at some contents whose rows 0..2 are the tile's last three rows.
-/
import proofs.«173514_j4612794876168_1_alg».proof.Proof.BitsShared

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at a middle tile. -/
theorem kernelRun0_B (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : ¬cond0_0 i) (hc1 : ¬cond0_1 i)
    (x0 : Vec F S1x256x8192 .f32) (x1 : Vec F S1x8192x4 .f32) (x2 : Vec F S8192x4 .f32) (xi6 : Vec F S1x8192x4 .f32) (xs0 : Vec F S8x8192 .f32) (p : Vec F S3x8192 .f32) (hp : rows3 xs0 = p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 p x2) ∗ owns (c : Thread nD τ) arg6 fullShare (k0_pay1 (k0_pay9 x0 p x2)) ∗ owns (c : Thread nD τ) arg7 fullShare (k0_pay2 (k0_pay7 x0 p x2)) ∗ owns (c : Thread nD τ) arg8 fullShare xi6 ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    subst hp
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H4]
    · iexists _; isplitr; swap; · iexact H4
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H5]
    · iexists _; isplitr; swap; · iexact H5
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H6]
    · iexists _; isplitr; · ipureintro; exact hf6
      iexact H6
    iexists _
    isplitl [HS0]
    · iexists _; isplitr; swap; · iexact HS0
      ipureintro; rfl
    ipureintro
    refine (ld_read_writes_same _ _ _ _).trans ?_
    sl_unfold_words
    simp only [View.readAt_eq_ld, harg2.read_unread, View.ld_unit_zero (S := S1x256x8192) hz3]

end Cert.Kernel.Body

end
-- ==== Proof.BitsRunC.lean ====
/-
  The kernel body at a point of the last sequence tile (l = 7): the first conditional is not taken, the second
  is. As at a middle tile, and besides the body stores the new-cache block: the tile's last four rows, transposed.
-/
import proofs.«173514_j4612794876168_1_alg».proof.Proof.BitsRunB

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at the last tile. -/
theorem kernelRun0_C (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : ¬cond0_0 i) (hc1 : cond0_1 i)
    (x0 : Vec F S1x256x8192 .f32) (x1 : Vec F S1x8192x4 .f32) (x2 : Vec F S8192x4 .f32) (xs0 : Vec F S8x8192 .f32) (p : Vec F S3x8192 .f32) (hp : rows3 xs0 = p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 p x2) ∗ owns (c : Thread nD τ) arg6 fullShare (k0_pay1 (k0_pay9 x0 p x2)) ∗ owns (c : Thread nD τ) arg7 fullShare (k0_pay2 (k0_pay7 x0 p x2)) ∗ owns (c : Thread nD τ) arg8 fullShare (k0_pay4 (k0_pay6 x0)) ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    subst hp
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H4]
    · iexists _; isplitr; swap; · iexact H4
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H5]
    · iexists _; isplitr; swap; · iexact H5
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H6]
    · iexists _; isplitr; swap; · iexact H6
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    iexists _
    isplitl [HS0]
    · iexists _; isplitr; swap; · iexact HS0
      ipureintro; rfl
    ipureintro
    refine (ld_read_writes_same _ _ _ _).trans ?_
    sl_unfold_words
    simp only [View.readAt_eq_ld, harg2.read_unread, View.ld_unit_zero (S := S1x256x8192) hz3]

end Cert.Kernel.Body

end
-- ==== Proof.BitsRunA.lean ====
/-
  The kernel body at a point of the first sequence tile (l = 0): the first conditional is taken, the second is
  not. The body first sets rows 0..2 of the carry buffer — whatever it held — to the cache block's columns 1, 2, 3
  transposed, and reads them back: those are the three rows before the tile. The rest is as at a middle tile.
-/
import proofs.«173514_j4612794876168_1_alg».proof.Proof.BitsRunC

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
/-- The body's triple at the first tile. -/
theorem kernelRun0_A (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : cond0_0 i) (hc1 : ¬cond0_1 i)
    (x0 : Vec F S1x256x8192 .f32) (x1 : Vec F S1x8192x4 .f32) (x2 : Vec F S8192x4 .f32) (xi6 : Vec F S1x8192x4 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 (k0_pay5 x1) x2) ∗ owns (c : Thread nD τ) arg6 fullShare (k0_pay1 (k0_pay9 x0 (k0_pay5 x1) x2)) ∗ owns (c : Thread nD τ) arg7 fullShare (k0_pay2 (k0_pay7 x0 (k0_pay5 x1) x2)) ∗ owns (c : Thread nD τ) arg8 fullShare xi6 ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H4]
    · iexists _; isplitr; swap; · iexact H4
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H5]
    · iexists _; isplitr; swap; · iexact H5
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H6]
    · iexists _; isplitr; · ipureintro; exact hf6
      iexact H6
    iexists _
    isplitl [HS0]
    · iexists _; isplitr; swap; · iexact HS0
      ipureintro; rfl
    ipureintro
    refine (ld_read_writes_cons _ _ _ _ _).trans ?_
    sl_unfold_words
    simp only [View.readAt_eq_ld, harg2.read_unread, View.ld_unit_zero (S := S1x256x8192) hz3]

end Cert.Kernel.Body

end
-- ==== Proof.BitsBody.lean ====
/-
  The region's proof data, the body obligation at every grid point, and the run.

  After the body at point t (t = 8·b + l) the q, k and v windows' buffers hold the channel bands of the
  activated four-tap sums computed from three things: the tile of x at t, the taps, and the three rows
  BEFORE the tile — the cache block's columns 1, 2, 3 transposed when l = 0, the last three rows of the tile
  at t - 1 otherwise. The new-cache window's buffer holds the tile's last four rows transposed; that matters
  at l = 7 only, the window being idle elsewhere. The input windows' buffers hold their blocks.

  Between points the body keeps those three rows in rows 0..2 of its carry buffer and nothing else of it
  matters, so the invariant after point n says: the carry buffer holds SOME contents whose rows 0..2 are the
  last three rows of the tile at n. Before the first point it holds anything; after the last point the
  fact is dropped again. Every case of the body re-establishes the fact, since every case ends by storing
  its tile's last three rows there.
-/
import proofs.«173514_j4612794876168_1_alg».proof.Proof.BitsRunA

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried rows -/

/-- The last three rows of the tile at grid position `n`. -/
def tailRows (c : Dev nD) (n : ℕ) (hn : n < cfg0.N) : Vec F S3x8192 .f32 :=
  k0_pay3 (k0_pay6 (iblk m c 0 ⟨n, hn⟩))

/-- The three rows before the tile of point `t`: from the cache block at a batch's first tile, else the
    last three rows of the tile before. -/
def prevRows (c : Dev nD) (t : Fin cfg0.N) : Vec F S3x8192 .f32 :=
  if h : t.val % 8 = 0 then k0_pay5 (iblk m c 1 t)
  else tailRows m c (t.val - 1) (lt_of_le_of_lt (Nat.sub_le _ _) t.isLt)

theorem prevRows_first (c : Dev nD) (t : Fin cfg0.N) (h : t.val % 8 = 0) :
    prevRows m c t = k0_pay5 (iblk m c 1 t) := dif_pos h

theorem prevRows_later (c : Dev nD) (t : Fin cfg0.N) (h : ¬t.val % 8 = 0) :
    prevRows m c t = tailRows m c (t.val - 1) (lt_of_le_of_lt (Nat.sub_le _ _) t.isLt) := dif_neg h

/-! ## The invariant, point by point -/

/-- Before position `n`: anything at `n = 0`; afterwards the carry buffer at some contents whose rows 0..2
    are the last three rows of the tile at `n - 1`, and the generator register at some state. -/
def PhiS (c : Dev nD) : (n : ℕ) → n ≤ cfg0.N → sProp 𝕄
  | 0, _ => Pipeline.ΦA spec0 c
  | n + 1, hn => iprop(iprop(∃ d, iprop(owns (c : Thread nD τ) scM0_0 fullShare d ∗ ⌜rows3 d = tailRows m c n hn⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, iprop(owns (c : Thread nD τ) scM0_0 fullShare d ∗ ⌜rows3 d = tailRows m c n hn⌝)) ∗ (∃ r, prngReg c r)) := rfl

theorem PhiS_pos (c : Dev nD) (n : ℕ) (h : n ≤ cfg0.N) (hz : n ≠ 0) :
    PhiS m c n h = iprop(iprop(∃ d, iprop(owns (c : Thread nD τ) scM0_0 fullShare d ∗ ⌜rows3 d = tailRows m c (n - 1) (by omega)⌝)) ∗ (∃ r, prngReg c r)) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay8 (iblk m c 0 t) (prevRows m c t) (iblk m c 2 t)
    | ⟨4, _⟩ => k0_pay1 (k0_pay9 (iblk m c 0 t) (prevRows m c t) (iblk m c 2 t))
    | ⟨5, _⟩ => k0_pay2 (k0_pay7 (iblk m c 0 t) (prevRows m c t) (iblk m c 2 t))
    | ⟨6, _⟩ => k0_pay4 (k0_pay6 (iblk m c 0 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay8 (iblk m c 0 t) (prevRows m c t) (iblk m c 2 t) := by dsimp only [dats]
theorem after0_4 (c : Dev nD) (t : Fin cfg0.N) :
    (dats m 0 c).after 4 t = k0_pay1 (k0_pay9 (iblk m c 0 t) (prevRows m c t) (iblk m c 2 t)) := by dsimp only [dats]
theorem after0_5 (c : Dev nD) (t : Fin cfg0.N) :
    (dats m 0 c).after 5 t = k0_pay2 (k0_pay7 (iblk m c 0 t) (prevRows m c t) (iblk m c 2 t)) := by dsimp only [dats]
theorem after0_6 (c : Dev nD) (t : Fin cfg0.N) :
    (dats m 0 c).after 6 t = k0_pay4 (k0_pay6 (iblk m c 0 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the closed forms say which of the three cases the point is in; the invariant hands
    the body its carry buffer with the fact about rows 0..2 (at anything before the first point), and the
    case's run hands it back with the fact for this point's tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 32 := lt_of_lt_of_eq t.isLt (show cfg0.N = 32 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 6 t (idleAt0_6 t hc1) (noFlush0_6 t hc1)]
    rw [prevRows_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk m c 0 t) (iblk m c 1 t) (iblk m c 2 t) _) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk m c 0 t) (iblk m c 1 t) (iblk m c 2 t) _) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexists _; iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 6 t = owns (c : Thread nD τ) (ms0_6 t) fullShare ((dats m 0 c).after 6 t) from by
        unfold Dat.leavesExact; rw [liveAt0_6 t hc1], after0_6]
      rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ hc0 hc1 (iblk m c 0 t) (iblk m c 1 t) (iblk m c 2 t) d (prevRows m c t) (hd.trans (prevRows_later m c t h0).symm)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dats m 0 c) 6 t (idleAt0_6 t hc1) (noFlush0_6 t hc1)]
      rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ hc0 hc1 (iblk m c 0 t) (iblk m c 1 t) (iblk m c 2 t) _ d (prevRows m c t) (hd.trans (prevRows_later m c t h0).symm)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the fact about rows 0..2 is dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%d, HS0, %hd⟩, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.IdealShared.lean ====
/-
  What the three runs of the kernel body share. The grid has 32 points, t = 8·b + l: batch b, sequence
  tile l. The body branches twice on l alone: at l = 0 it first fills rows 0..2 of its carry buffer from
  the cache block; at l = 7 it also stores the new cache block. So a point is in one of three cases:
  l = 0, 0 < l < 7, l = 7. The two conditions are decided over the grid in closed form (t mod 8).
  The new-cache window is idle, and not written back, wherever l ≠ 7; every other window is live at
  every point. The carry buffer is the kernel's one scratch operand: the region's invariant holds it
  at some contents, beside the generator register.
-/
import proofs.«173514_j4612794876168_1_alg».proof.Proof.Gen.KernelIdeal.Frame
import proofs.«173514_j4612794876168_1_alg».proof.Proof.Gen.KernelIdeal.Skeleton
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two branch conditions, over the grid -/

/-- The first conditional's condition (sequence tile 0), from the grid coordinates. -/
abbrev cond0_0 (i : grid0.Coords) : Prop := (Scalar.cmpi .ne (Scalar.extui (Scalar.cmpi .eq (BitVec.ofNat 32 (i 1).val) 0#32)) 0#32) = 1#1
/-- It holds exactly at the points t with t mod 8 = 0. -/
theorem hcond0_0 : ∀ t : Fin cfg0.N, cond0_0 (grid0.coords t) ↔ t.val % 8 = 0 :=
  (by decide +kernel : ∀ t : Fin grid0.N, cond0_0 (grid0.coords t) ↔ t.val % 8 = 0)

/-- The second conditional's condition (sequence tile 7), from the grid coordinates. -/
abbrev cond0_1 (i : grid0.Coords) : Prop := k0_cond2 i = 1#1
/-- It holds exactly at the points t with t mod 8 = 7. -/
theorem hcond0_1 : ∀ t : Fin cfg0.N, cond0_1 (grid0.coords t) ↔ t.val % 8 = 7 :=
  (by decide +kernel : ∀ t : Fin grid0.N, cond0_1 (grid0.coords t) ↔ t.val % 8 = 7)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- Away from sequence tile 7 the new-cache window is idle … -/
theorem idleAt0_6 : ∀ t : Fin cfg0.N, ¬cond0_1 (grid0.coords t) → cfg0.idle 6 (grid0.coords t) = true := by decide +kernel
/-- … and is not written back there. -/
theorem noFlush0_6 : ∀ t : Fin cfg0.N, ¬cond0_1 (grid0.coords t) → (cfg0.win 6).flush t = false := by decide +kernel
/-- At sequence tile 7 it is live. -/
theorem liveAt0_6 : ∀ t : Fin cfg0.N, cond0_1 (grid0.coords t) → cfg0.idle 6 (grid0.coords t) = false := by decide +kernel

/-! ## The staging memrefs at a point, and the carry buffer -/

abbrev ms0_0 (t : Fin cfg0.N) : Memref sig .tc .vmem S1x256x8192 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x8192x4 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8192x4 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x256x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256x4096 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8192x4 .f32 := win0_6.stage (cfg0.slots t 6)
abbrev hs0_6 (t : Fin cfg0.N) : (ms0_6 t).IsWhole := hstage0_6 ((cfg0.slots t 6).cast nbuf0_6)
/-- The carry buffer: a whole scoped buffer of the kernel's own. -/
abbrev scM0_0 : Memref sig .tc .vmem S8x8192 .f32 := Memref.whole cc0_scratch0

/-- The class invariant opened: the carry buffer owned at some contents, and the generator register. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-! ## Reading back what one store left -/

/-- Rows 0, 1, 2 of the carry buffer's contents: what a load through that rectangle reads. -/
abbrev rows3 (d : Vec F S8x8192 .f32) : Vec F S3x8192 .f32 :=
  View.ld d (Rect.unit (s := S8x8192) ![0, 0] S3x8192.size inb_S8x8192_S3x8192_0_0)

/-- One store through the whole-shape rectangle at zero offsets reads back as its payload, whatever the
    buffer held before. -/
theorem read_writes_unit_zero {sig' : RefSig} {κ : Kind} {sp : Space} {S : Shape} {e : EltTy}
    (v : View sig' κ sp S e) (f : v.ty.Contents (Elt F)) {off : Fin S.rank → Nat} (h : off = fun _ => 0)
    (inb : ∀ a, off a + S.size a ≤ S.size a) (w : S.Idx → Elt F e) :
    v.read (Elt F) (v.writes (Elt F) f [(⟨Rect.unit off S.size inb, w⟩ : View.Piece (Elt F) S e)]) = w := by
  subst h; exact View.read_writes_whole v f w

/-- A load through the rectangle one store went through reads that store's payload, whatever else the buffer holds. -/
theorem ld_read_writes_same {sig' : RefSig} {κ : Kind} {sp : Space} {S : Shape} {e : EltTy}
    (v : View sig' κ sp S e) (f : v.ty.Contents (Elt F)) (r : Rect S) (w : r.shape.Idx → Elt F e) :
    View.ld (v.read (Elt F) (v.writes (Elt F) f [(⟨r, w⟩ : View.Piece (Elt F) S e)])) r = w :=
  funext fun x => View.read_writes_cons_emb v f r w [] x

/-- The zero offsets of a rank-2 and of a rank-3 rectangle, as functions. -/
theorem hz2 : (![0, 0] : Fin 2 → Nat) = fun _ => 0 := funext fun a => by fin_cases a <;> rfl
theorem hz3 : (![0, 0, 0] : Fin 3 → Nat) = fun _ => 0 := funext fun a => by fin_cases a <;> rfl

/-- A load through the rectangle the NEWEST store went through reads that store's payload, whatever the
    earlier stores and the buffer's earlier contents were. -/
theorem ld_read_writes_cons {sig' : RefSig} {κ : Kind} {sp : Space} {S : Shape} {e : EltTy}
    (v : View sig' κ sp S e) (f : v.ty.Contents (Elt F)) (r : Rect S) (w : r.shape.Idx → Elt F e)
    (L : List (View.Piece (Elt F) S e)) :
    View.ld (v.read (Elt F) (v.writes (Elt F) f ((⟨r, w⟩ : View.Piece (Elt F) S e) :: L))) r = w :=
  funext fun x => View.read_writes_cons_emb v f r w L x

/-- What a load through a rectangle reads right after one store through the same rectangle: the store's payload. -/
theorem readCov_same {sig' : RefSig} {κ : Kind} {sp : Space} {S : Shape} {e : EltTy}
    (v : View sig' κ sp S e) (r : Rect S) (w : r.shape.Idx → Elt F e) :
    v.readCov [(⟨r, w⟩ : View.Piece (Elt F) S e)] r.toLoadRect = w :=
  ld_read_writes_same v v.junk r w

end Cert.KernelIdeal.Body

end
-- ==== Proof.IdealRunB.lean ====
/-
  The kernel body at a point of a middle sequence tile (0 < l < 7): neither conditional is taken. The body
  finds its three input blocks, and the carry buffer at contents whose rows 0..2 are p, the three rows before
  the tile. It leaves q, k, v's blocks at the activated four-tap sums of the tile (the channel bands of one
  256 × 8192 array computed from the tile, p and the taps), the new-cache block as it found it, and the carry
  buffer at some contents whose rows 0..2 are the tile's last three rows.
-/
import proofs.«173514_j4612794876168_1_alg».proof.Proof.IdealShared

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at a middle tile. -/
theorem kernelRun0_B (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : ¬cond0_0 i) (hc1 : ¬cond0_1 i)
    (x0 : Vec F S1x256x8192 .f32) (x1 : Vec F S1x8192x4 .f32) (x2 : Vec F S8192x4 .f32) (xi6 : Vec F S1x8192x4 .f32) (xs0 : Vec F S8x8192 .f32) (p : Vec F S3x8192 .f32) (hp : rows3 xs0 = p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi6 ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 p x2) ∗ owns (c : Thread nD τ) arg6 fullShare (k0_pay1 (k0_pay9 x0 p x2)) ∗ owns (c : Thread nD τ) arg7 fullShare (k0_pay2 (k0_pay7 x0 p x2)) ∗ owns (c : Thread nD τ) arg8 fullShare xi6 ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    subst hp
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H4]
    · iexists _; isplitr; swap; · iexact H4
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H5]
    · iexists _; isplitr; swap; · iexact H5
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H6]
    · iexists _; isplitr; · ipureintro; exact hf6
      iexact H6
    iexists _
    isplitl [HS0]
    · iexists _; isplitr; swap; · iexact HS0
      ipureintro; rfl
    ipureintro
    refine (ld_read_writes_same _ _ _ _).trans ?_
    sl_unfold_words
    simp only [View.readAt_eq_ld, harg2.read_unread, View.ld_unit_zero (S := S1x256x8192) hz3]

end Cert.KernelIdeal.Body

end
-- ==== Proof.IdealRunC.lean ====
/-
  The kernel body at a point of the last sequence tile (l = 7): the first conditional is not taken, the second
  is. As at a middle tile, and besides the body stores the new-cache block: the tile's last four rows, transposed.
-/
import proofs.«173514_j4612794876168_1_alg».proof.Proof.IdealRunB

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at the last tile. -/
theorem kernelRun0_C (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : ¬cond0_0 i) (hc1 : cond0_1 i)
    (x0 : Vec F S1x256x8192 .f32) (x1 : Vec F S1x8192x4 .f32) (x2 : Vec F S8192x4 .f32) (xs0 : Vec F S8x8192 .f32) (p : Vec F S3x8192 .f32) (hp : rows3 xs0 = p) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 p x2) ∗ owns (c : Thread nD τ) arg6 fullShare (k0_pay1 (k0_pay9 x0 p x2)) ∗ owns (c : Thread nD τ) arg7 fullShare (k0_pay2 (k0_pay7 x0 p x2)) ∗ owns (c : Thread nD τ) arg8 fullShare (k0_pay4 (k0_pay6 x0)) ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    subst hp
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%d6, %f6, -, H6⟩, ⟨%fs0, %hfs0, HS0⟩, Hk⟩
    obtain rfl := harg2.eq_unread hf0; obtain rfl := harg3.eq_unread hf1; obtain rfl := harg4.eq_unread hf2; obtain rfl := harg9.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H4]
    · iexists _; isplitr; swap; · iexact H4
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H5]
    · iexists _; isplitr; swap; · iexact H5
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    isplitl [H6]
    · iexists _; isplitr; swap; · iexact H6
      ipureintro
      rw [read_writes_unit_zero _ _ hz3]
      sl_unfold_words
      simp only [View.readAt_eq_ld, harg2.read_unread, harg3.read_unread, harg4.read_unread, harg9.read_unread, View.ld_unit_zero (S := S1x256x8192) hz3, View.ld_unit_zero (S := S8192x4) hz2, View.ld_unit_zero (S := S1x8192x4) hz3]
    iexists _
    isplitl [HS0]
    · iexists _; isplitr; swap; · iexact HS0
      ipureintro; rfl
    ipureintro
    refine (ld_read_writes_same _ _ _ _).trans ?_
    sl_unfold_words
    simp only [View.readAt_eq_ld, harg2.read_unread, View.ld_unit_zero (S := S1x256x8192) hz3]

end Cert.KernelIdeal.Body

end
-- ==== Proof.IdealRunA.lean ====
/-
  The kernel body at a point of the first sequence tile (l = 0): the first conditional is taken, the second is
  not. The body first sets rows 0..2 of the carry buffer — whatever it held — to the cache block's columns 1, 2, 3
  transposed, and reads them back: those are the three rows before the tile. The rest is as at a middle tile.
-/
import proofs.«173514_j4612794876168_1_alg».proof.Proof.IdealRunC

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
/-- The body's triple at the first tile. -/
theorem kernelRun0_A (c : Dev nD) (i : grid0.Coords) (arg2 : Memref sig .tc .vmem S1x256x8192 .f32) (harg2 : arg2.IsWhole) (arg3 : Memref sig .tc .vmem S1x8192x4 .f32) (harg3 : arg3.IsWhole) (arg4 : Memref sig .tc .vmem S8192x4 .f32) (harg4 : arg4.IsWhole) (arg5 : Memref sig .tc .vmem S1x256x2048 .f32) (harg5 : arg5.IsWhole) (arg6 : Memref sig .tc .vmem S1x256x2048 .f32) (harg6 : arg6.IsWhole) (arg7 : Memref sig .tc .vmem S1x256x4096 .f32) (harg7 : arg7.IsWhole) (arg8 : Memref sig .tc .vmem S1x8192x4 .f32) (harg8 : arg8.IsWhole) (arg9 : Memref sig .tc .vmem S8x8192 .f32) (harg9 : arg9.IsWhole) (hc0 : cond0_0 i) (hc1 : ¬cond0_1 i)
    (x0 : Vec F S1x256x8192 .f32) (x1 : Vec F S1x8192x4 .f32) (x2 : Vec F S8192x4 .f32) (xi6 : Vec F S1x8192x4 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d) ∗ (∃ d, owns (c : Thread nD τ) arg7 fullShare d) ∗ owns (c : Thread nD τ) arg8 fullShare xi6 ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare (k0_pay8 x0 (k0_pay5 x1) x2) ∗ owns (c : Thread nD τ) arg6 fullShare (k0_pay1 (k0_pay9 x0 (k0_pay5 x1) x2)) ∗ owns (c : Thread nD τ) arg7 fullShare (k0_pay2 (k0_pay7 x0 (k0_pay5 x1) x2)) ∗ owns (c : Thread nD τ) arg8 fullShare xi6 ∗ (∃ d', iprop(owns (c : Thread nD τ) arg9 fullShare d' ∗ ⌜rows3 d' = k0_pay3 (k0_pay6 x0)⌝))) -∗ K ⟨⟩))
          ⊢ wp frame (wpE (defs₀ (F := F)) Variants.none c none) E (cc0__conv_kernel i arg2 harg2 arg3 harg3 arg4 harg4 arg5 harg5 arg6 harg6 arg7 harg7 arg8 harg8 arg9 harg9) K := by
    intro E K
    simp only [cc0__conv_kernel_eq_skeleton]; unfold cc0__conv_kernel_skel
    simp only [k0_part1_eq_skeleton]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%f6, %hf6, H6⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; swap; · iexact H3
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H4]
    · iexists _; isplitr; swap; · iexact H4
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H5]
    · iexists _; isplitr; swap; · iexact H5
      ipureintro
      rw [read_writes_unit_zero _ _ hz3]
      sl_unfold_words
      simp only [View.readAt_eq_ld, harg2.read_unread, harg3.read_unread, harg4.read_unread, View.ld_unit_zero (S := S1x256x8192) hz3, View.ld_unit_zero (S := S8192x4) hz2, View.ld_unit_zero (S := S1x8192x4) hz3, readCov_same]
    isplitl [H6]
    · iexists _; isplitr; · ipureintro; exact hf6
      iexact H6
    iexists _
    isplitl [HS0]
    · iexists _; isplitr; swap; · iexact HS0
      ipureintro; rfl
    ipureintro
    refine (ld_read_writes_cons _ _ _ _ _).trans ?_
    sl_unfold_words
    simp only [View.readAt_eq_ld, harg2.read_unread, View.ld_unit_zero (S := S1x256x8192) hz3]

end Cert.KernelIdeal.Body

end
-- ==== Proof.IdealBody.lean ====
/-
  The region's proof data, the body obligation at every grid point, and the run.

  After the body at point t (t = 8·b + l) the q, k and v windows' buffers hold the channel bands of the
  activated four-tap sums computed from three things: the tile of x at t, the taps, and the three rows
  BEFORE the tile — the cache block's columns 1, 2, 3 transposed when l = 0, the last three rows of the tile
  at t - 1 otherwise. The new-cache window's buffer holds the tile's last four rows transposed; that matters
  at l = 7 only, the window being idle elsewhere. The input windows' buffers hold their blocks.

  Between points the body keeps those three rows in rows 0..2 of its carry buffer and nothing else of it
  matters, so the invariant after point n says: the carry buffer holds SOME contents whose rows 0..2 are the
  last three rows of the tile at n. Before the first point it holds anything; after the last point the
  fact is dropped again. Every case of the body re-establishes the fact, since every case ends by storing
  its tile's last three rows there.
-/
import proofs.«173514_j4612794876168_1_alg».proof.Proof.IdealRunA

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The carried rows -/

/-- The last three rows of the tile at grid position `n`. -/
def tailRows (c : Dev nD) (n : ℕ) (hn : n < cfg0.N) : Vec F S3x8192 .f32 :=
  k0_pay3 (k0_pay6 (iblk m c 0 ⟨n, hn⟩))

/-- The three rows before the tile of point `t`: from the cache block at a batch's first tile, else the
    last three rows of the tile before. -/
def prevRows (c : Dev nD) (t : Fin cfg0.N) : Vec F S3x8192 .f32 :=
  if h : t.val % 8 = 0 then k0_pay5 (iblk m c 1 t)
  else tailRows m c (t.val - 1) (lt_of_le_of_lt (Nat.sub_le _ _) t.isLt)

theorem prevRows_first (c : Dev nD) (t : Fin cfg0.N) (h : t.val % 8 = 0) :
    prevRows m c t = k0_pay5 (iblk m c 1 t) := dif_pos h

theorem prevRows_later (c : Dev nD) (t : Fin cfg0.N) (h : ¬t.val % 8 = 0) :
    prevRows m c t = tailRows m c (t.val - 1) (lt_of_le_of_lt (Nat.sub_le _ _) t.isLt) := dif_neg h

/-! ## The invariant, point by point -/

/-- Before position `n`: anything at `n = 0`; afterwards the carry buffer at some contents whose rows 0..2
    are the last three rows of the tile at `n - 1`, and the generator register at some state. -/
def PhiS (c : Dev nD) : (n : ℕ) → n ≤ cfg0.N → sProp 𝕄
  | 0, _ => Pipeline.ΦA spec0 c
  | n + 1, hn => iprop(iprop(∃ d, iprop(owns (c : Thread nD τ) scM0_0 fullShare d ∗ ⌜rows3 d = tailRows m c n hn⌝)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ d, iprop(owns (c : Thread nD τ) scM0_0 fullShare d ∗ ⌜rows3 d = tailRows m c n hn⌝)) ∗ (∃ r, prngReg c r)) := rfl

theorem PhiS_pos (c : Dev nD) (n : ℕ) (h : n ≤ cfg0.N) (hz : n ≠ 0) :
    PhiS m c n h = iprop(iprop(∃ d, iprop(owns (c : Thread nD τ) scM0_0 fullShare d ∗ ⌜rows3 d = tailRows m c (n - 1) (by omega)⌝)) ∗ (∃ r, prngReg c r)) := by
  cases n with
  | zero => exact absurd rfl hz
  | succ n => rfl

/-! ## The proof data -/

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => k0_pay8 (iblk m c 0 t) (prevRows m c t) (iblk m c 2 t)
    | ⟨4, _⟩ => k0_pay1 (k0_pay9 (iblk m c 0 t) (prevRows m c t) (iblk m c 2 t))
    | ⟨5, _⟩ => k0_pay2 (k0_pay7 (iblk m c 0 t) (prevRows m c t) (iblk m c 2 t))
    | ⟨6, _⟩ => k0_pay4 (k0_pay6 (iblk m c 0 t))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = k0_pay8 (iblk m c 0 t) (prevRows m c t) (iblk m c 2 t) := by dsimp only [dats]
theorem after0_4 (c : Dev nD) (t : Fin cfg0.N) :
    (dats m 0 c).after 4 t = k0_pay1 (k0_pay9 (iblk m c 0 t) (prevRows m c t) (iblk m c 2 t)) := by dsimp only [dats]
theorem after0_5 (c : Dev nD) (t : Fin cfg0.N) :
    (dats m 0 c).after 5 t = k0_pay2 (k0_pay7 (iblk m c 0 t) (prevRows m c t) (iblk m c 2 t)) := by dsimp only [dats]
theorem after0_6 (c : Dev nD) (t : Fin cfg0.N) :
    (dats m 0 c).after 6 t = k0_pay4 (k0_pay6 (iblk m c 0 t)) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4800000 in
/-- The body at any point: the closed forms say which of the three cases the point is in; the invariant hands
    the body its carry buffer with the fact about rows 0..2 (at anything before the first point), and the
    case's run hands it back with the fact for this point's tile. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 32 := lt_of_lt_of_eq t.isLt (show cfg0.N = 32 from N_0)
  by_cases h0 : t.val % 8 = 0
  · have h1 : ¬t.val % 8 = 7 := by omega
    have hc0 : cond0_0 (grid0.coords t) := (hcond0_0 t).mpr h0
    have hc1 : ¬cond0_1 (grid0.coords t) := fun h => h1 ((hcond0_1 t).mp h)
    rw [Dat.leavesExact_idle (dats m 0 c) 6 t (idleAt0_6 t hc1) (noFlush0_6 t hc1)]
    rw [prevRows_first m c t h0]
    by_cases hz : t.val = 0
    · rw [PhiS_castSucc m c t, PhiS_zero m c _ _ hz, PhiA0_eq]
      iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk m c 0 t) (iblk m c 1 t) (iblk m c 2 t) _) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_A c (grid0.coords t) _ _ _ _ _ _ _ _ _ _ _ _ _ _ _ _ hc0 hc1 (iblk m c 0 t) (iblk m c 1 t) (iblk m c 2 t) _) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexists _; iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have hz : t.val ≠ 0 := fun h => h0 (by rw [h])
    have hc0 : ¬cond0_0 (grid0.coords t) := fun h => h0 ((hcond0_0 t).mp h)
    by_cases h1 : t.val % 8 = 7
    · have hc1 : cond0_1 (grid0.coords t) := (hcond0_1 t).mpr h1
      rw [show (dats m 0 c).leavesExact 6 t = owns (c : Thread nD τ) (ms0_6 t) fullShare ((dats m 0 c).after 6 t) from by
        unfold Dat.leavesExact; rw [liveAt0_6 t hc1], after0_6]
      rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_C c (grid0.coords t) _ _ _ _ _ _ _ _ _ _ _ _ _ _ _ _ hc0 hc1 (iblk m c 0 t) (iblk m c 1 t) (iblk m c 2 t) d (prevRows m c t) (hd.trans (prevRows_later m c t h0).symm)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexists _; iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hc1 : ¬cond0_1 (grid0.coords t) := fun h => h1 ((hcond0_1 t).mp h)
      rw [Dat.leavesExact_idle (dats m 0 c) 6 t (idleAt0_6 t hc1) (noFlush0_6 t hc1)]
      rw [PhiS_castSucc m c t, PhiS_pos m c _ _ hz]
      iintro ⟨⟨⟨%d, HS0, %hd⟩, Hg⟩, Ho, ⟨%d0, H0⟩, ⟨%d1, H1⟩, ⟨%d2, H2⟩, ⟨%d3, H3⟩, ⟨%d4, H4⟩, ⟨%d5, H5⟩, ⟨%d6, H6⟩⟩
      iapply ((kernelRun0_B c (grid0.coords t) _ _ _ _ _ _ _ _ _ _ _ _ _ _ _ _ hc0 hc1 (iblk m c 0 t) (iblk m c 1 t) (iblk m c 2 t) _ d (prevRows m c t) (hd.trans (prevRows_later m c t h0).symm)) Set.univ _)
      isplitl [H0]; · iexact H0
      isplitl [H1]; · iexact H1
      isplitl [H2]; · iexact H2
      isplitl [H3]; · iexists _; iexact H3
      isplitl [H4]; · iexists _; iexact H4
      isplitl [H5]; · iexists _; iexact H5
      isplitl [H6]; · iexact H6
      isplitl [HS0]; · iexact HS0
      iintro ⟨H0, H1, H2, H3, H4, H5, H6, ⟨%d', HS0, %hd'⟩⟩
      isplitl [HS0 Hg]
      · isplitl [HS0]
        · iexists d'; isplitl [HS0]; · iexact HS0
          ipureintro; exact hd'
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the class's back: the fact about rows 0..2 is dropped. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨%d, HS0, %hd⟩, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 32 := N_0; omega)

/-! ## The run and the frame -/

set_option backward.isDefEq.respectTransparency.types false in
/-- Every weakly fair execution of @main terminates, every array of the pipeline ending at what the library
    computes from the proof data and every other unscoped buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame claim's statement, at any `F`. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.ConvSpec.lean ====
/-
  A causal depthwise convolution of four taps along the sequence axis, followed by the activation
  y ↦ y · σ(y), cut into three column bands, beside the last four sequence rows transposed.

  For a batch b and a channel d the PADDED SEQUENCE has 2051 positions: positions 0, 1, 2 are the
  cache's columns 1, 2, 3 at (b, d) — the three most recent past inputs — and position i ≥ 3 is
  x at sequence row i - 3. The convolution at row t is the four-term sum
      ((w(d,0)·p(t) + w(d,1)·p(t+1)) + w(d,2)·p(t+2)) + w(d,3)·p(t+3),
  grouped from the left exactly as both programs group it, so that no law of the extended reals
  is needed to compare them. The activation multiplies that sum by its logistic. The three results
  q, k, v are the channel bands [0, 2048), [2048, 4096), [4096, 8192) of the activated array; the
  fourth result holds, at (b, d, j), the input x at sequence row 2044 + j: the padded sequence's
  last four positions, transposed.

  Everything is stated at the extended reals, over literal extents, index by index.
-/
import Idealize.ShloMosaic.PureOps.Ideal
import Idealize.ShloMosaic.Lib.ValueIdx

noncomputable section

namespace Cert.ConvSpec

open Idealize.ShloMosaic Idealize.ShloMosaic.ValueIdx

/-- The input's shape: batch, sequence row, channel. -/
abbrev SX : Shape := ⟨3, ![4, 2048, 8192]⟩
/-- The cache's shape: batch, channel, the four most recent inputs. -/
abbrev SC : Shape := ⟨3, ![4, 8192, 4]⟩
/-- The taps' shape: channel, tap. -/
abbrev SW : Shape := ⟨2, ![8192, 4]⟩
/-- The shape of q and of k. -/
abbrev SQ : Shape := ⟨3, ![4, 2048, 2048]⟩
/-- The shape of v. -/
abbrev SV : Shape := ⟨3, ![4, 2048, 4096]⟩

variable (x : FVec Ideal SX .f32) (cache : FVec Ideal SC .f32) (w : FVec Ideal SW .f32)

/-- The padded sequence at batch `b`, position `i`, channel `d`: the cache's columns 1, 2, 3 at the
    first three positions, then the input's rows. -/
def padded (b : Fin 4) (i : Fin 2051) (d : Fin 8192) : EReal :=
  if h : i.val < 3 then cache (ix3 b d (⟨i.val + 1, by omega⟩ : Fin 4))
  else x (ix3 b (⟨i.val - 3, by omega⟩ : Fin 2048) d)

/-- The four-tap sum at batch `b`, row `t`, channel `d`, grouped from the left. -/
def conv (b : Fin 4) (t : Fin 2048) (d : Fin 8192) : EReal :=
  ((w (ix2 d (0 : Fin 4)) * padded x cache b (⟨t.val, by omega⟩ : Fin 2051) d
      + w (ix2 d (1 : Fin 4)) * padded x cache b (⟨t.val + 1, by omega⟩ : Fin 2051) d)
    + w (ix2 d (2 : Fin 4)) * padded x cache b (⟨t.val + 2, by omega⟩ : Fin 2051) d)
  + w (ix2 d (3 : Fin 4)) * padded x cache b (⟨t.val + 3, by omega⟩ : Fin 2051) d

/-- The activation: a number times its logistic. -/
def act (y : EReal) : EReal := y * Ideal.logistic y

/-- The activated convolution at batch `b`, row `t`, channel `d`. -/
def activated (b : Fin 4) (t : Fin 2048) (d : Fin 8192) : EReal := act (conv x cache w b t d)

/-- q: the channels below 2048. -/
def resQ : FVec Ideal SQ .f32 := fun j => activated x cache w (j 0) (j 1) (⟨(j 2).val, by have h : (j 2).val < 2048 := (j 2).isLt; omega⟩ : Fin 8192)
/-- k: the channels from 2048 to 4095. -/
def resK : FVec Ideal SQ .f32 := fun j => activated x cache w (j 0) (j 1) (⟨2048 + (j 2).val, by have h : (j 2).val < 2048 := (j 2).isLt; omega⟩ : Fin 8192)
/-- v: the channels from 4096 on. -/
def resV : FVec Ideal SV .f32 := fun j => activated x cache w (j 0) (j 1) (⟨4096 + (j 2).val, by have h : (j 2).val < 4096 := (j 2).isLt; omega⟩ : Fin 8192)
/-- The new cache: at (b, d, j) the input at row 2044 + j. -/
def resCache : FVec Ideal SC .f32 := fun j => x (ix3 (j 0) (⟨2044 + (j 2).val, by have h : (j 2).val < 4 := (j 2).isLt; omega⟩ : Fin 2048) (j 1))

end Cert.ConvSpec

end
-- ==== Proof.TileValue.lean ====
/-
  What one grid point's tile stores, index by index.

  A grid point (batch, tile) holds a tile of 256 sequence rows over 8192 channels, the three rows
  carried from before the tile, and the 8192 × 4 taps. The body lays the carried rows in front of
  the tile's own (259 PADDED ROWS), and at tile row r, channel d forms the four-tap sum
      ((w(d,0)·p(r) + w(d,1)·p(r+1)) + w(d,2)·p(r+2)) + w(d,3)·p(r+3)
  over the padded rows p, grouped from the left; it multiplies the sum by its logistic, and stores
  the channel bands [0, 2048), [2048, 4096), [4096, 8192) of the result. Beside them it stores the
  tile's last three rows as the next carry and its last four rows, transposed, as the new cache; at
  a batch's first tile the carry is first filled from the cache block's columns 1, 2, 3, transposed.

  Each theorem below reads one stored value at one index. Every operation between a loaded vector
  and a stored one either acts entry by entry (a product, a sum, the logistic) or moves entries
  without changing them (a slice, a change of shape that keeps the row-major order, one row repeated
  down the rows, a transpose, two blocks of rows laid end to end); so a stored entry is an
  expression in loaded entries whose coordinates differ from the stored one's by literal offsets.
-/
import proofs.«173514_j4612794876168_1_alg».proof.Proof.Gen.KernelIdeal.Skeleton
import proofs.«173514_j4612794876168_1_alg».proof.Proof.ConvSpec
import Idealize.ShloMosaic.Lib.ValueIdx
import Idealize.ShloMosaic.Lib.ValueLayout
import Idealize.ShloMosaic.Lib.Pipeline.Value
import Idealize.ShloMosaic.PureOps.Ideal

noncomputable section

namespace Cert.TileValue

open Idealize.ShloMosaic Idealize.ShloMosaic.ValueIdx Cert.KernelIdeal Cert.KernelIdeal.Gen

variable (v3 : Vec Ideal S1x256x8192 .f32) (v5 : Vec Ideal S3x8192 .f32) (v7 : Vec Ideal S8192x4 .f32)
  (v56 : Vec Ideal S1x8192x4 .f32)

/-! ## The statement's two functions -/

/-- The tile's 259 padded rows: the three carried rows, then the tile's own. -/
def tilePad (i : Fin 259) (d : Fin 8192) : EReal :=
  if h : i.val < 3 then v5 (ix2 (⟨i.val, h⟩ : Fin 3) d)
  else v3 (ix3 (0 : Fin 1) (⟨i.val - 3, by omega⟩ : Fin 256) d)

/-- The four-tap sum at tile row r, channel d, grouped from the left. -/
def tileConv (r : Fin 256) (d : Fin 8192) : EReal :=
  ((v7 (ix2 d (0 : Fin 4)) * tilePad v3 v5 ⟨r.val, by omega⟩ d
      + v7 (ix2 d (1 : Fin 4)) * tilePad v3 v5 ⟨r.val + 1, by omega⟩ d)
    + v7 (ix2 d (2 : Fin 4)) * tilePad v3 v5 ⟨r.val + 2, by omega⟩ d)
  + v7 (ix2 d (3 : Fin 4)) * tilePad v3 v5 ⟨r.val + 3, by omega⟩ d

/-! ## A column read as a vector -/

/-- An [a, 1] array read as a vector of length a: entry i is the column's entry (i, 0), the two having
    the same row-major position i · 1 + 0 = i. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-! ## The tile without its unit axis -/

/-- The tile read as a matrix: row r, channel d is the loaded block's entry (0, r, d). -/
theorem pay6_apply (r : Fin 256) (d : Fin 8192) :
    k0_pay6 (F := Ideal) v3 (ix2 r d) = v3 (ix3 (0 : Fin 1) r d) :=
  shapeCast_1ab_ab_apply v3 shapeCasts_S1x256x8192_S256x8192 r d

/-! ## The padded rows -/

/-- The padded rows as the body builds them: the carried rows laid before the tile's. -/
def padVec : FVec Ideal S259x8192 .f32 :=
  concatenate S259x8192 0 [⟨S3x8192, v5⟩, ⟨S256x8192, k0_pay6 v3⟩] concatenates_S3x8192_S256x8192_S259x8192_d0

/-- Padded row i is carried row i when i < 3, and the tile's row i - 3 otherwise. -/
theorem padVec_apply (i : Fin 259) (d : Fin 8192) : padVec v3 v5 (ix2 i d) = tilePad v3 v5 i d := by
  unfold padVec tilePad
  by_cases h : i.val < 3
  · rw [dif_pos h]
    exact concatenate_pair_apply_left (0 : Fin 2) v5 (k0_pay6 v3) concatenates_S3x8192_S256x8192_S259x8192_d0
      (ix2 i d) rfl (ix2 (⟨i.val, h⟩ : Fin 3) d) (fun b => match b with | ⟨0, _⟩ => rfl | ⟨1, _⟩ => rfl)
  · rw [dif_neg h]
    have hi : i.val - 3 < 256 := by omega
    refine (concatenate_pair_apply_right (0 : Fin 2) v5 (k0_pay6 v3) concatenates_S3x8192_S256x8192_S259x8192_d0
      (ix2 i d) rfl rfl (ix2 (⟨i.val - 3, hi⟩ : Fin 256) d) (fun b hb => ?_) ?_).trans ?_
    · match b with
      | ⟨0, _⟩ => exact absurd rfl hb
      | ⟨1, _⟩ => rfl
    · show (i.val - 3) + 3 = i.val
      omega
    · exact pay6_apply v3 ⟨i.val - 3, hi⟩ d

/-- The window of 256 padded rows that starts at row o, read at (r, d): padded row r + o. -/
theorem window_apply (o : Nat) (ho : o < 4) (h : S259x8192.Slices ![o, 0] S256x8192) (r : Fin 256) (d : Fin 8192) :
    extractStridedSlice S256x8192 ![o, 0] (padVec v3 v5) h (ix2 r d) = tilePad v3 v5 ⟨r.val + o, by omega⟩ d :=
  (slice2_axis0_apply o (padVec v3 v5) h r d ⟨r.val + o, by omega⟩ (Nat.add_comm _ _)).trans
    (padVec_apply v3 v5 _ d)

/-! ## One tap down the rows -/

/-- Tap o as the body spreads it over the tile: the taps' column o, read as a vector over the channels,
    then as one row, then repeated down the 256 rows. -/
def tapVec (o : Nat) (h : S8192x4.Slices ![0, o] S8192x1) : FVec Ideal S256x8192 .f32 :=
  broadcastTo S256x8192
    (shapeCast S1x8192 (shapeCast S8192 (extractStridedSlice S8192x1 ![0, o] v7 h) shapeCasts_S8192x1_S8192)
      shapeCasts_S8192_S1x8192)
    broadcasts_S1x8192_S256x8192

/-- Whatever the row, the spread tap at channel d is the taps' entry (d, o). -/
theorem tapVec_apply (o : Nat) (ho : o < 4) (h : S8192x4.Slices ![0, o] S8192x1) (r : Fin 256) (d : Fin 8192) :
    tapVec v7 o h (ix2 r d) = v7 (ix2 d (⟨o, ho⟩ : Fin 4)) := by
  unfold tapVec
  refine (broadcastTo_1b_ab_apply _ broadcasts_S1x8192_S256x8192 r d).trans ?_
  refine (shapeCast_a_1a_apply _ shapeCasts_S8192_S1x8192 (0 : Fin 1) d).trans ?_
  refine (shapeCast_a1_a_apply _ shapeCasts_S8192x1_S8192 d).trans ?_
  exact slice2_axis1_apply o v7 h d (0 : Fin 1) ⟨o, ho⟩ rfl

/-! ## The four-tap sum and its activation -/

/-- The four-tap sum as the body forms it: each spread tap times its window, added from the left. -/
def sumVec : FVec Ideal S256x8192 .f32 :=
  addf
    (addf
      (addf
        (mulf (tapVec v7 0 slices_S8192x4_o0_0_S8192x1)
          (extractStridedSlice S256x8192 ![0, 0] (padVec v3 v5) slices_S259x8192_o0_0_S256x8192))
        (mulf (tapVec v7 1 slices_S8192x4_o0_1_S8192x1)
          (extractStridedSlice S256x8192 ![1, 0] (padVec v3 v5) slices_S259x8192_o1_0_S256x8192)))
      (mulf (tapVec v7 2 slices_S8192x4_o0_2_S8192x1)
        (extractStridedSlice S256x8192 ![2, 0] (padVec v3 v5) slices_S259x8192_o2_0_S256x8192)))
    (mulf (tapVec v7 3 slices_S8192x4_o0_3_S8192x1)
      (extractStridedSlice S256x8192 ![3, 0] (padVec v3 v5) slices_S259x8192_o3_0_S256x8192))

/-- The body's activated array is the four-tap sum times its logistic, entry by entry. -/
theorem pay7_eq : k0_pay7 (F := Ideal) v3 v5 v7 = mulf (sumVec v3 v5 v7) (logistic (sumVec v3 v5 v7)) := rfl

/-- The four-tap sum at (r, d). -/
theorem sumVec_apply (r : Fin 256) (d : Fin 8192) : sumVec v3 v5 v7 (ix2 r d) = tileConv v3 v5 v7 r d := by
  unfold sumVec tileConv
  simp only [addf_apply, mulf_apply]
  rw [tapVec_apply v7 0 (by omega) _ r d, tapVec_apply v7 1 (by omega) _ r d, tapVec_apply v7 2 (by omega) _ r d,
    tapVec_apply v7 3 (by omega) _ r d, window_apply v3 v5 0 (by omega) _ r d, window_apply v3 v5 1 (by omega) _ r d,
    window_apply v3 v5 2 (by omega) _ r d, window_apply v3 v5 3 (by omega) _ r d]
  rfl

/-- The activated array at (r, d): the activation of the four-tap sum there. -/
theorem pay7_apply (r : Fin 256) (d : Fin 8192) :
    k0_pay7 (F := Ideal) v3 v5 v7 (ix2 r d) = Cert.ConvSpec.act (tileConv v3 v5 v7 r d) := by
  rw [pay7_eq]
  show sumVec v3 v5 v7 (ix2 r d) * Ideal.logistic (sumVec v3 v5 v7 (ix2 r d)) = _
  rw [sumVec_apply]
  rfl

/-! ## The three channel bands -/

/-- The first band, stored with a leading unit axis: channels [0, 2048) of the activated array. -/
theorem pay8_apply (r : Fin 256) (j : Fin 2048) :
    k0_pay8 (F := Ideal) v3 v5 v7 (ix3 (0 : Fin 1) r j)
      = Cert.ConvSpec.act (tileConv v3 v5 v7 r ⟨j.val, by omega⟩) := by
  unfold k0_pay8
  refine (shapeCast_ab_1ab_apply _ shapeCasts_S256x2048_S1x256x2048 (0 : Fin 1) r j).trans ?_
  refine (slice2_axis1_apply 0 (k0_pay7 v3 v5 v7) slices_S256x8192_o0_0_S256x2048 r j ⟨j.val, by omega⟩
    (Nat.zero_add _).symm).trans ?_
  exact pay7_apply v3 v5 v7 r _

/-- The second band, stored with a leading unit axis: channels [2048, 4096) of the activated array. -/
theorem pay1_pay9_apply (r : Fin 256) (j : Fin 2048) :
    k0_pay1 (F := Ideal) (k0_pay9 v3 v5 v7) (ix3 (0 : Fin 1) r j)
      = Cert.ConvSpec.act (tileConv v3 v5 v7 r ⟨2048 + j.val, by omega⟩) := by
  unfold k0_pay1 k0_pay9
  refine (shapeCast_ab_1ab_apply _ shapeCasts_S256x2048_S1x256x2048 (0 : Fin 1) r j).trans ?_
  refine (slice2_axis1_apply 2048 (k0_pay7 v3 v5 v7) slices_S256x8192_o0_2048_S256x2048 r j ⟨2048 + j.val, by omega⟩
    rfl).trans ?_
  exact pay7_apply v3 v5 v7 r _

/-- The third band, stored with a leading unit axis: channels [4096, 8192) of the activated array. -/
theorem pay2_pay7_apply (r : Fin 256) (j : Fin 4096) :
    k0_pay2 (F := Ideal) (k0_pay7 v3 v5 v7) (ix3 (0 : Fin 1) r j)
      = Cert.ConvSpec.act (tileConv v3 v5 v7 r ⟨4096 + j.val, by omega⟩) := by
  unfold k0_pay2
  refine (shapeCast_ab_1ab_apply _ shapeCasts_S256x4096_S1x256x4096 (0 : Fin 1) r j).trans ?_
  refine (slice2_axis1_apply 4096 (k0_pay7 v3 v5 v7) slices_S256x8192_o0_4096_S256x4096 r j ⟨4096 + j.val, by omega⟩
    rfl).trans ?_
  exact pay7_apply v3 v5 v7 r _

/-! ## The next carry and the new cache -/

/-- A change of shape to the same shape moves nothing. -/
theorem shapeCast_same_apply {α : Type} {a b : ℕ} (x : (⟨2, ![a, b]⟩ : Shape).Idx → α)
    (h : (⟨2, ![a, b]⟩ : Shape).ShapeCasts ⟨2, ![a, b]⟩) (i : Fin a) (j : Fin b) :
    shapeCast ⟨2, ![a, b]⟩ x h (ix2 i j) = x (ix2 i j) :=
  shapeCast_apply x h _ _ rfl

/-- The next carry: the tile's last three rows, 253, 254, 255. -/
theorem pay3_pay6_apply (a : Fin 3) (d : Fin 8192) :
    k0_pay3 (F := Ideal) (k0_pay6 v3) (ix2 a d)
      = v3 (ix3 (0 : Fin 1) (⟨253 + a.val, by omega⟩ : Fin 256) d) := by
  unfold k0_pay3
  refine (shapeCast_same_apply _ shapeCasts_S3x8192_S3x8192 a d).trans ?_
  refine (slice2_axis0_apply 253 (k0_pay6 v3) slices_S256x8192_o253_0_S3x8192 a d ⟨253 + a.val, by omega⟩ rfl).trans ?_
  exact pay6_apply v3 _ d

/-- The new cache: at channel d, column j, the tile's row 252 + j — its last four rows, transposed. -/
theorem pay4_pay6_apply (d : Fin 8192) (j : Fin 4) :
    k0_pay4 (F := Ideal) (k0_pay6 v3) (ix3 (0 : Fin 1) d j)
      = v3 (ix3 (0 : Fin 1) (⟨252 + j.val, by omega⟩ : Fin 256) d) := by
  unfold k0_pay4
  refine (shapeCast_ab_1ab_apply _ shapeCasts_S8192x4_S1x8192x4 (0 : Fin 1) d j).trans ?_
  refine (transpose_ix2_apply _ transposes_S4x8192_p1_0_S8192x4 d j).trans ?_
  refine (slice2_axis0_apply 252 (k0_pay6 v3) slices_S256x8192_o252_0_S4x8192 j d ⟨252 + j.val, by omega⟩ rfl).trans ?_
  exact pay6_apply v3 _ d

/-- The carry at a batch's first tile: row a is the cache block's column a + 1, over the channels. -/
theorem pay5_apply (a : Fin 3) (d : Fin 8192) :
    k0_pay5 (F := Ideal) v56 (ix2 a d) = v56 (ix3 (0 : Fin 1) d (⟨a.val + 1, by omega⟩ : Fin 4)) := by
  unfold k0_pay5
  refine (shapeCast_same_apply _ shapeCasts_S3x8192_S3x8192 a d).trans ?_
  refine (transpose_ix2_apply _ transposes_S8192x3_p1_0_S3x8192 a d).trans ?_
  refine (slice2_axis1_apply 1 _ slices_S8192x4_o0_1_S8192x3 d a ⟨a.val + 1, by omega⟩ (Nat.add_comm _ _)).trans ?_
  exact shapeCast_1ab_ab_apply v56 shapeCasts_S1x8192x4_S8192x4 d _

end Cert.TileValue

end
-- ==== Proof.TileToArray.lean ====
/-
  One grid point's tile, placed in the whole arrays. The grid's point t is batch b = t / 8 and sequence
  tile l = t mod 8; the tile's row r is the sequence row 256·l + r. The three rows before the tile are the
  padded sequence's positions 256·l, 256·l + 1, 256·l + 2: the cache's columns at l = 0, the previous tile's
  last rows otherwise. So the tile's 259 padded rows are the padded sequence's positions 256·l … 256·l + 258,
  and the tile's activated four-tap sum at (r, d) is the whole arrays' at (b, 256·l + r, d).
-/
import proofs.«173514_j4612794876168_1_alg».proof.Proof.IdealBody
import proofs.«173514_j4612794876168_1_alg».proof.Proof.TileValue
import proofs.«173514_j4612794876168_1_alg».proof.Proof.ConvSpec
import Idealize.ShloMosaic.Lib.Pipeline.Value
import Idealize.ShloMosaic.Lib.ValueIdx

noncomputable section

namespace Cert.KernelIdeal.TileToArray

open Idealize.ShloMosaic Idealize.ShloMosaic.TcCoe Idealize.ShloMosaic.ValueIdx Idealize.SL.Sem
open Cert.KernelIdeal Cert.KernelIdeal.Gen Cert.KernelIdeal.Body

variable (m : (ℓ : Loc nD τ sig) → Buf (Elt Ideal) ℓ)

/-- The three argument arrays on core `c`, at their literal shapes. -/
abbrev argX (c : Dev nD) : FVec Ideal Cert.ConvSpec.SX .f32 := m ((c.tc : Thread nD τ).loc main_arg0)
abbrev argC (c : Dev nD) : FVec Ideal Cert.ConvSpec.SC .f32 := m ((c.tc : Thread nD τ).loc main_arg1)
abbrev argW (c : Dev nD) : FVec Ideal Cert.ConvSpec.SW .f32 := m ((c.tc : Thread nD τ).loc main_arg2)

/-- The batch and the sequence row of a tile's row. -/
theorem batch_lt (t : Fin cfg0.N) : t.val / 8 < 4 := by
  have : t.val < 32 := lt_of_lt_of_eq t.isLt (show cfg0.N = 32 from N_0); omega
theorem row_lt (t : Fin cfg0.N) (r : Fin 256) : 256 * (t.val % 8) + r.val < 2048 := by
  have := r.isLt; omega

/-- Window by window, the block a grid point reads: x at (batch, tile, 0), the cache at (batch, 0, 0), the taps
    at (0, 0) — decided once over the 32 points. -/
theorem idx_x : ∀ t : Fin cfg0.N, win0_0.index t (0 : Fin 3) = t.val / 8 ∧ win0_0.index t (1 : Fin 3) = t.val % 8
    ∧ win0_0.index t (2 : Fin 3) = 0 :=
  (by decide +kernel : ∀ t : Fin grid0.N, win0_0.index t (0 : Fin 3) = t.val / 8 ∧ win0_0.index t (1 : Fin 3) = t.val % 8
    ∧ win0_0.index t (2 : Fin 3) = 0)

theorem idx_c : ∀ t : Fin cfg0.N, win0_1.index t (0 : Fin 3) = t.val / 8 ∧ win0_1.index t (1 : Fin 3) = 0
    ∧ win0_1.index t (2 : Fin 3) = 0 :=
  (by decide +kernel : ∀ t : Fin grid0.N, win0_1.index t (0 : Fin 3) = t.val / 8 ∧ win0_1.index t (1 : Fin 3) = 0
    ∧ win0_1.index t (2 : Fin 3) = 0)

theorem idx_w : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

/-- The tile of x at point t, row r, channel d, is x at any (b, s, d) with b = t / 8 and s = 256·(t mod 8) + r:
    on each axis the block's coordinate is its index times its extent plus the coordinate inside it. -/
theorem xtile_at (c : Dev nD) (t : Fin cfg0.N) (r : Fin 256) (d : Fin 8192) (b : Fin 4) (s : Fin 2048)
    (hb : b.val = t.val / 8) (hs : s.val = 256 * (t.val % 8) + r.val) :
    (iblk m c 0 t : Vec Ideal S1x256x8192 .f32) (ix3 (0 : Fin 1) r d) = argX m c (ix3 b s d) := by
  obtain ⟨h0, h1, h2⟩ := idx_x t
  unfold iblk
  rw [View.read_apply]
  show V m c main_arg0 _ = m (c.tc.loc main_arg0) _
  unfold V
  congr 1
  funext a
  apply Fin.ext
  match a with
  | ⟨0, _⟩ => show win0_0.index t 0 * 1 + 1 * (0 : Fin 1).val = b.val; rw [h0, hb]; simp only [Fin.val_zero]; omega
  | ⟨1, _⟩ => show win0_0.index t 1 * 256 + 1 * r.val = s.val; rw [h1, hs]; omega
  | ⟨2, _⟩ => show win0_0.index t 2 * 8192 + 1 * d.val = d.val; rw [h2]; omega

/-- The cache block at point t is the cache's batch t / 8, whole in its other two axes. -/
theorem cblk_at (c : Dev nD) (t : Fin cfg0.N) (d : Fin 8192) (j : Fin 4) (b : Fin 4) (hb : b.val = t.val / 8) :
    (iblk m c 1 t : Vec Ideal S1x8192x4 .f32) (ix3 (0 : Fin 1) d j) = argC m c (ix3 b d j) := by
  obtain ⟨h0, h1, h2⟩ := idx_c t
  unfold iblk
  rw [View.read_apply]
  show V m c main_arg1 _ = m (c.tc.loc main_arg1) _
  unfold V
  congr 1
  funext a
  apply Fin.ext
  match a with
  | ⟨0, _⟩ => show win0_1.index t 0 * 1 + 1 * (0 : Fin 1).val = b.val; rw [h0, hb]; simp only [Fin.val_zero]; omega
  | ⟨1, _⟩ => show win0_1.index t 1 * 8192 + 1 * d.val = d.val; rw [h1]; omega
  | ⟨2, _⟩ => show win0_1.index t 2 * 4 + 1 * j.val = j.val; rw [h2]; omega

/-- The taps' block is the whole array of taps at every point. -/
theorem wblk_at (c : Dev nD) (t : Fin cfg0.N) (d : Fin 8192) (k : Fin 4) :
    (iblk m c 2 t : Vec Ideal S8192x4 .f32) (ix2 d k) = argW m c (ix2 d k) := by
  obtain ⟨h0, h1⟩ := idx_w t
  unfold iblk
  rw [View.read_apply]
  show V m c main_arg2 _ = m (c.tc.loc main_arg2) _
  unfold V
  congr 1
  funext a
  apply Fin.ext
  match a with
  | ⟨0, _⟩ => show win0_2.index t 0 * 8192 + 1 * d.val = d.val; rw [h0]; omega
  | ⟨1, _⟩ => show win0_2.index t 1 * 4 + 1 * k.val = k.val; rw [h1]; omega

/-- The tile's padded row i is the padded sequence's position 256·(t mod 8) + i of batch t / 8.
    From row 3 on, both are x at sequence row 256·l + i − 3. Below row 3, at a batch's first tile both are the
    cache's column i + 1; at a later tile the left is row 253 + i of the tile before, which is sequence row
    256·(l − 1) + 253 + i = 256·l + i − 3, the padded sequence's position 256·l + i ≥ 256 read past the cache. -/
theorem pad_at (c : Dev nD) (t : Fin cfg0.N) (i : Fin 259) (d : Fin 8192) (b : Fin 4) (p : Fin 2051)
    (hb : b.val = t.val / 8) (hp : p.val = 256 * (t.val % 8) + i.val) :
    Cert.TileValue.tilePad (iblk m c 0 t) (prevRows m c t) i d
      = Cert.ConvSpec.padded (argX m c) (argC m c) b p d := by
  have hN : t.val < 32 := lt_of_lt_of_eq t.isLt (show cfg0.N = 32 from N_0)
  have hi259 : i.val < 259 := i.isLt
  unfold Cert.TileValue.tilePad Cert.ConvSpec.padded
  by_cases hi : i.val < 3
  · rw [dif_pos hi]
    by_cases hl : t.val % 8 = 0
    · have hp3 : p.val < 3 := by omega
      rw [dif_pos hp3, prevRows_first m c t hl, Cert.TileValue.pay5_apply]
      refine (cblk_at m c t d _ b hb).trans ?_
      exact congrArg (fun j : Fin 4 => argC m c (ix3 b d j)) (Fin.ext (by show i.val + 1 = p.val + 1; omega))
    · have hp3 : ¬ p.val < 3 := by omega
      rw [dif_neg hp3, prevRows_later m c t hl]
      unfold tailRows
      rw [Cert.TileValue.pay3_pay6_apply]
      refine xtile_at m c ⟨t.val - 1, _⟩ ⟨253 + i.val, _⟩ d b ⟨p.val - 3, _⟩ ?_ ?_
      · show b.val = (t.val - 1) / 8; omega
      · show p.val - 3 = 256 * ((t.val - 1) % 8) + (253 + i.val); omega
  · have hp3 : ¬ p.val < 3 := by omega
    rw [dif_neg hi, dif_neg hp3]
    refine xtile_at m c t ⟨i.val - 3, _⟩ d b ⟨p.val - 3, _⟩ hb ?_
    show p.val - 3 = 256 * (t.val % 8) + (i.val - 3); omega

/-- The tile's activated four-tap sum is the whole arrays' at the tile's place. -/
theorem tile_activated (c : Dev nD) (t : Fin cfg0.N) (r : Fin 256) (d : Fin 8192) :
    Cert.ConvSpec.act (Cert.TileValue.tileConv (iblk m c 0 t) (prevRows m c t) (iblk m c 2 t) r d)
      = Cert.ConvSpec.activated (argX m c) (argC m c) (argW m c) ⟨t.val / 8, batch_lt t⟩ ⟨256 * (t.val % 8) + r.val, row_lt t r⟩ d := by
  have hr : r.val < 256 := r.isLt
  unfold Cert.ConvSpec.activated
  refine congrArg Cert.ConvSpec.act ?_
  unfold Cert.TileValue.tileConv Cert.ConvSpec.conv
  rw [wblk_at m c t d 0, wblk_at m c t d 1, wblk_at m c t d 2, wblk_at m c t d 3]
  rw [pad_at m c t ⟨r.val, by omega⟩ d ⟨t.val / 8, batch_lt t⟩ ⟨256 * (t.val % 8) + r.val, by omega⟩ rfl rfl,
    pad_at m c t ⟨r.val + 1, by omega⟩ d ⟨t.val / 8, batch_lt t⟩ ⟨256 * (t.val % 8) + r.val + 1, by omega⟩ rfl
      (by show 256 * (t.val % 8) + r.val + 1 = 256 * (t.val % 8) + (r.val + 1); omega),
    pad_at m c t ⟨r.val + 2, by omega⟩ d ⟨t.val / 8, batch_lt t⟩ ⟨256 * (t.val % 8) + r.val + 2, by omega⟩ rfl
      (by show 256 * (t.val % 8) + r.val + 2 = 256 * (t.val % 8) + (r.val + 2); omega),
    pad_at m c t ⟨r.val + 3, by omega⟩ d ⟨t.val / 8, batch_lt t⟩ ⟨256 * (t.val % 8) + r.val + 3, by omega⟩ rfl
      (by show 256 * (t.val % 8) + r.val + 3 = 256 * (t.val % 8) + (r.val + 3); omega)]

/-- A row of the tile of x is the sequence row at the tile's place. -/
theorem xtile_apply (c : Dev nD) (t : Fin cfg0.N) (r : Fin 256) (d : Fin 8192) :
    (iblk m c 0 t : Vec Ideal S1x256x8192 .f32) (ix3 (0 : Fin 1) r d)
      = argX m c (ix3 (⟨t.val / 8, batch_lt t⟩ : Fin 4) (⟨256 * (t.val % 8) + r.val, row_lt t r⟩ : Fin 2048) d) :=
  xtile_at m c t r d _ _ rfl rfl

end Cert.KernelIdeal.TileToArray

end
-- ==== Proof.KValueQKV.lean ====
/-
  The q, k and v arrays after the run are the specification's.

  The grid's point t is batch b = t / 8 and sequence tile l = t mod 8. Each of the three results is written
  back at every point, one block a point: rows 256·l … 256·l + 255 of batch b, over all of the result's
  channels. What the body leaves in a block at (0, r, j) is the activated four-tap sum of the point's tile at
  row r and at channel j, 2048 + j or 4096 + j of the 8192 — the band the result is cut from — and that is
  the whole arrays' activated sum at (b, 256·l + r, the same channel): the result's entry at the place the
  block's (0, r, j) has in the array, which is (b, 256·l + r, j). The 32 blocks fill the array, the block
  that holds (b, s, j) being the one of point 8·b + s / 256; so the array ends as the specification's.
-/
import proofs.«173514_j4612794876168_1_alg».proof.Proof.TileToArray
import Idealize.ShloMosaic.Lib.Pipeline.Value
import Idealize.ShloMosaic.Lib.ValueIdx

noncomputable section

namespace Cert.KernelIdeal.QKV

open Idealize.ShloMosaic Idealize.ShloMosaic.TcCoe Idealize.ShloMosaic.ValueIdx Idealize.SL.Sem
open Cert.KernelIdeal Cert.KernelIdeal.Gen Cert.KernelIdeal.Body Cert.KernelIdeal.TileToArray
open Idealize.ShloMosaic.Pipeline (Dat)

variable (m : (ℓ : Loc nD τ sig) → Buf (Elt Ideal) ℓ)

/-! ## The grid -/

/-- The three results' block indices at point t: batch t / 8, sequence tile t mod 8, and the one block of
    channels. -/
theorem block_index : ∀ t : Fin cfg0.N,
    (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)
    ∧ (win0_5.index t (0 : Fin 3) = t.val / 8 ∧ win0_5.index t (1 : Fin 3) = t.val % 8 ∧ win0_5.index t (2 : Fin 3) = 0) :=
  (by decide +kernel : ∀ t : Fin grid0.N, _)

/-- The point whose blocks hold batch b, sequence row s. -/
theorem point_of (b : Fin 4) (s : Fin 2048) : ∃ t : Fin cfg0.N, t.val = 8 * b.val + s.val / 256 :=
  ⟨⟨8 * b.val + s.val / 256, lt_of_lt_of_eq (by have := b.isLt; have := s.isLt; omega) (show (32 : Nat) = cfg0.N from N_0.symm)⟩, rfl⟩

/-! ## q -/

/-- What point t leaves in q's block at (0, r, j) is q at (t / 8, 256·(t mod 8) + r, j). -/
theorem q_point (c : Dev nD) (t : Fin cfg0.N) (r : Fin 256) (j : Fin 2048) :
    k0_pay8 (F := Ideal) (iblk m c 0 t) (prevRows m c t) (iblk m c 2 t) (ix3 (0 : Fin 1) r j)
      = Cert.ConvSpec.resQ (argX m c) (argC m c) (argW m c)
          (ix3 (⟨t.val / 8, batch_lt t⟩ : Fin 4) (⟨256 * (t.val % 8) + r.val, row_lt t r⟩ : Fin 2048) j) := by
  refine (Cert.TileValue.pay8_apply (iblk m c 0 t) (prevRows m c t) (iblk m c 2 t) r j).trans ?_
  exact tile_activated m c t r ⟨j.val, by omega⟩

/-- What point t writes back to q is its block of the specification's q. -/
theorem flushed_eq_3 (c : Dev nD) (t : Fin cfg0.N) :
    (dats m 0 c).flushed 3 t
      = ((cfg0.win 3).blk t).view.read (Elt Ideal) (Cert.ConvSpec.resQ (argX m c) (argC m c) (argW m c)) := by
  show (cfg0.win 3).cut (grid0.coords t) ((dats m 0 c).after 3 t) = _
  rw [after0_3]
  obtain ⟨e0, e1, e2⟩ := (block_index t).1
  funext y
  have h0 : (y 0).val < 1 := (y 0).isLt
  have h1 : (y 1).val < 256 := (y 1).isLt
  have h2 : (y 2).val < 2048 := (y 2).isLt
  -- the index inside the block, coordinate by coordinate
  have hy : (cfg0.win 3).xinj (grid0.coords t) y = ix3 (0 : Fin 1) (⟨(y 1).val, h1⟩ : Fin 256) (⟨(y 2).val, h2⟩ : Fin 2048) := by
    funext a; apply Fin.ext
    match a with
    | ⟨0, _⟩ => show (y 0).val = 0; omega
    | ⟨1, _⟩ => rfl
    | ⟨2, _⟩ => rfl
  -- its place in the array: on each axis the block index times the block's extent, plus the coordinate inside
  have he : ((cfg0.win 3).blk t).view.emb y
      = ix3 (⟨t.val / 8, batch_lt t⟩ : Fin 4) (⟨256 * (t.val % 8) + (y 1).val, row_lt t ⟨(y 1).val, h1⟩⟩ : Fin 2048) (⟨(y 2).val, h2⟩ : Fin 2048) := by
    funext a; apply Fin.ext
    match a with
    | ⟨0, _⟩ => show win0_3.index t (0 : Fin 3) * 1 + 1 * (y 0).val = t.val / 8; omega
    | ⟨1, _⟩ => show win0_3.index t (1 : Fin 3) * 256 + 1 * (y 1).val = 256 * (t.val % 8) + (y 1).val; omega
    | ⟨2, _⟩ => show win0_3.index t (2 : Fin 3) * 2048 + 1 * (y 2).val = (y 2).val; omega
  refine (congrArg (k0_pay8 (F := Ideal) (iblk m c 0 t) (prevRows m c t) (iblk m c 2 t)) hy).trans ?_
  refine (q_point m c t ⟨(y 1).val, h1⟩ ⟨(y 2).val, h2⟩).trans ?_
  exact (congrArg (Cert.ConvSpec.resQ (argX m c) (argC m c) (argW m c)) he).symm

/-- Every index of q is in some point's block: (b, s, j) in that of point 8·b + s / 256. -/
theorem cover_3 (i : S4x2048x2048.Idx) :
    ∃ t : Fin cfg0.N, (cfg0.win 3).flush t = true ∧ i ∈ ((cfg0.win 3).blk t).view.set := by
  obtain ⟨t, ht⟩ := point_of (i 0) (i 1)
  obtain ⟨e0, e1, e2⟩ := (block_index t).1
  have h0 : (i 0).val < 4 := (i 0).isLt
  have h1 : (i 1).val < 2048 := (i 1).isLt
  have h2 : (i 2).val < 2048 := (i 2).isLt
  refine ⟨t, flush0_3 t, ?_⟩
  show i ∈ ((View.whole main_v0_0).slice (win0_3.rect t)).set
  rw [View.set_slice_whole, Rect.mem_set_unit]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 256 ≤ (i 1).val ∧ (i 1).val < win0_3.index t (1 : Fin 3) * 256 + 256; omega
  | ⟨2, _⟩ => show win0_3.index t (2 : Fin 3) * 2048 ≤ (i 2).val ∧ (i 2).val < win0_3.index t (2 : Fin 3) * 2048 + 2048; omega

/-- q after the run is the specification's: the activated sums' channels below 2048. -/
theorem final3 (c : Dev nD) :
    (dats m 0 c).arrAt 3 cfg0.N = Cert.ConvSpec.resQ (argX m c) (argC m c) (argW m c) :=
  (dats m 0 c).arrAt_eq_of_cover 3 _ (fun t _ => flushed_eq_3 m c t) cover_3

/-! ## k -/

/-- What point t leaves in k's block at (0, r, j) is k at (t / 8, 256·(t mod 8) + r, j), the activated sum's channel 2048 + j. -/
theorem k_point (c : Dev nD) (t : Fin cfg0.N) (r : Fin 256) (j : Fin 2048) :
    k0_pay1 (F := Ideal) (k0_pay9 (iblk m c 0 t) (prevRows m c t) (iblk m c 2 t)) (ix3 (0 : Fin 1) r j)
      = Cert.ConvSpec.resK (argX m c) (argC m c) (argW m c)
          (ix3 (⟨t.val / 8, batch_lt t⟩ : Fin 4) (⟨256 * (t.val % 8) + r.val, row_lt t r⟩ : Fin 2048) j) := by
  refine (Cert.TileValue.pay1_pay9_apply (iblk m c 0 t) (prevRows m c t) (iblk m c 2 t) r j).trans ?_
  exact tile_activated m c t r ⟨2048 + j.val, by omega⟩

/-- What point t writes back to k is its block of the specification's k. -/
theorem flushed_eq_4 (c : Dev nD) (t : Fin cfg0.N) :
    (dats m 0 c).flushed 4 t
      = ((cfg0.win 4).blk t).view.read (Elt Ideal) (Cert.ConvSpec.resK (argX m c) (argC m c) (argW m c)) := by
  show (cfg0.win 4).cut (grid0.coords t) ((dats m 0 c).after 4 t) = _
  rw [after0_4]
  obtain ⟨e0, e1, e2⟩ := (block_index t).2.1
  funext y
  have h0 : (y 0).val < 1 := (y 0).isLt
  have h1 : (y 1).val < 256 := (y 1).isLt
  have h2 : (y 2).val < 2048 := (y 2).isLt
  -- the index inside the block, coordinate by coordinate
  have hy : (cfg0.win 4).xinj (grid0.coords t) y = ix3 (0 : Fin 1) (⟨(y 1).val, h1⟩ : Fin 256) (⟨(y 2).val, h2⟩ : Fin 2048) := by
    funext a; apply Fin.ext
    match a with
    | ⟨0, _⟩ => show (y 0).val = 0; omega
    | ⟨1, _⟩ => rfl
    | ⟨2, _⟩ => rfl
  -- its place in the array: on each axis the block index times the block's extent, plus the coordinate inside
  have he : ((cfg0.win 4).blk t).view.emb y
      = ix3 (⟨t.val / 8, batch_lt t⟩ : Fin 4) (⟨256 * (t.val % 8) + (y 1).val, row_lt t ⟨(y 1).val, h1⟩⟩ : Fin 2048) (⟨(y 2).val, h2⟩ : Fin 2048) := by
    funext a; apply Fin.ext
    match a with
    | ⟨0, _⟩ => show win0_4.index t (0 : Fin 3) * 1 + 1 * (y 0).val = t.val / 8; omega
    | ⟨1, _⟩ => show win0_4.index t (1 : Fin 3) * 256 + 1 * (y 1).val = 256 * (t.val % 8) + (y 1).val; omega
    | ⟨2, _⟩ => show win0_4.index t (2 : Fin 3) * 2048 + 1 * (y 2).val = (y 2).val; omega
  refine (congrArg (k0_pay1 (F := Ideal) (k0_pay9 (iblk m c 0 t) (prevRows m c t) (iblk m c 2 t))) hy).trans ?_
  refine (k_point m c t ⟨(y 1).val, h1⟩ ⟨(y 2).val, h2⟩).trans ?_
  exact (congrArg (Cert.ConvSpec.resK (argX m c) (argC m c) (argW m c)) he).symm

/-- Every index of k is in some point's block: (b, s, j) in that of point 8·b + s / 256. -/
theorem cover_4 (i : S4x2048x2048.Idx) :
    ∃ t : Fin cfg0.N, (cfg0.win 4).flush t = true ∧ i ∈ ((cfg0.win 4).blk t).view.set := by
  obtain ⟨t, ht⟩ := point_of (i 0) (i 1)
  obtain ⟨e0, e1, e2⟩ := (block_index t).2.1
  have h0 : (i 0).val < 4 := (i 0).isLt
  have h1 : (i 1).val < 2048 := (i 1).isLt
  have h2 : (i 2).val < 2048 := (i 2).isLt
  refine ⟨t, flush0_4 t, ?_⟩
  show i ∈ ((View.whole main_v0_1).slice (win0_4.rect t)).set
  rw [View.set_slice_whole, Rect.mem_set_unit]
  intro a
  match a with
  | ⟨0, _⟩ => show win0_4.index t (0 : Fin 3) * 1 ≤ (i 0).val ∧ (i 0).val < win0_4.index t (0 : Fin 3) * 1 + 1; omega
  | ⟨1, _⟩ => show win0_4.index t (1 : Fin 3) * 256 ≤ (i 1).val ∧ (i 1).val < win0_4.index t (1 : Fin 3) * 256 + 256; omega
  | ⟨2, _⟩ => show win0_4.index t (2 : Fin 3) * 2048 ≤ (i 2).val ∧ (i 2).val < win0_4.index t (2 : Fin 3) * 2048 + 2048; omega

/-- k after the run is the specification's: the activated sums' channels from 2048 to 4095. -/
theorem final4 (c : Dev nD) :
    (dats m 0 c).arrAt 4 cfg0.N = Cert.ConvSpec.resK (argX m c) (argC m c) (argW m c) :=
  (dats m 0 c).arrAt_eq_of_cover 4 _ (fun t _ => flushed_eq_4 m c t) cover_4

/-! ## v -/

/-- What point t leaves in v's block at (0, r, j) is v at (t / 8, 256·(t mod 8) + r, j), the activated sum's channel 4096 + j. -/
theorem v_point (c : Dev nD) (t : Fin cfg0.N) (r : Fin 256) (j : Fin 4096) :
    k0_pay2 (F := Ideal) (k0_pay7 (iblk m c 0 t) (prevRows m c t) (iblk m c 2 t)) (ix3 (0 : Fin 1) r j)
      = Cert.ConvSpec.resV (argX m c) (argC m c) (argW m c)
          (ix3 (⟨t.val / 8, batch_lt t⟩ : Fin 4) (⟨256 * (t.val % 8) + r.val, row_lt t r⟩ : Fin 2048) j) := by
  refine (Cert.TileValue.pay2_pay7_apply (iblk m c 0 t) (prevRows m c t) (iblk m c 2 t) r j).trans ?_
  exact tile_activated m c t r ⟨4096 + j.val, by omega⟩

/-- What point t writes back to v is its block of the specification's v. -/
theorem flushed_eq_5 (c : Dev nD) (t : Fin cfg0.N) :
    (dats m 0 c).flushed 5 t
      = ((cfg0.win 5).blk t).view.read (Elt Ideal) (Cert.ConvSpec.resV (argX m c) (argC m c) (argW m c)) := by
  show (cfg0.win 5).cut (grid0.coords t) ((dats m 0 c).after 5 t) = _
  rw [after0_5]
  obtain ⟨e0, e1, e2⟩ := (block_index t).2.2
  funext y
  have h0 : (y 0).val < 1 := (y 0).isLt
  have h1 : (y 1).val < 256 := (y 1).isLt
  have h2 : (y 2).val < 4096 := (y 2).isLt
  -- the index inside the block, coordinate by coordinate
  have hy : (cfg0.win 5).xinj (grid0.coords t) y = ix3 (0 : Fin 1) (⟨(y 1).val, h1⟩ : Fin 256) (⟨(y 2).val, h2⟩ : Fin 4096) := by
    funext a; apply Fin.ext
    match a with
    | ⟨0, _⟩ => show (y 0).val = 0; omega
    | ⟨1, _⟩ => rfl
    | ⟨2, _⟩ => rfl
  -- its place in the array: on each axis the block index times the block's extent, plus the coordinate inside
  have he : ((cfg0.win 5).blk t).view.emb y
      = ix3 (⟨t.val / 8, batch_lt t⟩ : Fin 4) (⟨256 * (t.val % 8) + (y 1).val, row_lt t ⟨(y 1).val, h1⟩⟩ : Fin 2048) (⟨(y 2).val, h2⟩ : Fin 4096) := by
    funext a; apply Fin.ext
    match a with
    | ⟨0, _⟩ => show win0_5.index t (0 : Fin 3) * 1 + 1 * (y 0).val = t.val / 8; omega
    | ⟨1, _⟩ => show win0_5.index t (1 : Fin 3) * 256 + 1 * (y 1).val = 256 * (t.val % 8) + (y 1).val; omega
    | ⟨2, _⟩ => show win0_5.index t (2 : Fin 3) * 4096 + 1 * (y 2).val = (y 2).val; omega
  refine (congrArg (k0_pay2 (F := Ideal) (k0_pay7 (iblk m c 0 t) (prevRows m c t) (iblk m c 2 t))) hy).trans ?_
  refine (v_point m c t ⟨(y 1).val, h1⟩ ⟨(y 2).val, h2⟩).trans ?_
  exact (congrArg (Cert.ConvSpec.resV (argX m c) (argC m c) (argW m c)) he).symm

/-- Every index of v is in some point's block: (b, s, j) in that of point 8·b + s / 256. -/
theorem cover_5 (i : S4x2048x4096.Idx) :
    ∃ t : Fin cfg0.N, (cfg0.win 5).flush t = true ∧ i ∈ ((cfg0.win 5).blk t).view.set := by
  obtain ⟨t, ht⟩ := point_of (i 0) (i 1)
  obtain ⟨e0, e1, e2⟩ := (block_index t).2.2
  have h0 : (i 0).val < 4 := (i 0).isLt
  have h1 : (i 1).val < 2048 := (i 1).isLt
  have h2 : (i 2).val < 4096 := (i 2).isLt
  refine ⟨t, flush0_5 t, ?_⟩
  show i ∈ ((View.whole main_v0_2).slice (win0_5.rect t)).set
  rw [View.set_slice_whole, Rect.mem_set_unit]
  intro a
  match a with
  | ⟨0, _⟩ => show win0_5.index t (0 : Fin 3) * 1 ≤ (i 0).val ∧ (i 0).val < win0_5.index t (0 : Fin 3) * 1 + 1; omega
  | ⟨1, _⟩ => show win0_5.index t (1 : Fin 3) * 256 ≤ (i 1).val ∧ (i 1).val < win0_5.index t (1 : Fin 3) * 256 + 256; omega
  | ⟨2, _⟩ => show win0_5.index t (2 : Fin 3) * 4096 ≤ (i 2).val ∧ (i 2).val < win0_5.index t (2 : Fin 3) * 4096 + 4096; omega

/-- v after the run is the specification's: the activated sums' channels from 4096 on. -/
theorem final5 (c : Dev nD) :
    (dats m 0 c).arrAt 5 cfg0.N = Cert.ConvSpec.resV (argX m c) (argC m c) (argW m c) :=
  (dats m 0 c).arrAt_eq_of_cover 5 _ (fun t _ => flushed_eq_5 m c t) cover_5

end Cert.KernelIdeal.QKV

end
-- ==== Proof.KValueCache.lean ====
/-
  The new-cache array after the run is the specification's.

  The new-cache window's block at the grid's point t = 8·b + l is batch b whole: all 8192 channels and all
  four columns. It is written back at a batch's last tile only, l = 7. What the body leaves there is the
  tile's last four rows transposed: at channel d, column j, the tile's row 252 + j. Row r of the tile at
  (b, l) is sequence row 256·l + r, so at l = 7 that entry is the input at sequence row
  256·7 + 252 + j = 2044 + j, batch b, channel d, which is what the specification puts at (b, d, j).
  Every (b, d, j) lies in the block of the point 8·b + 7, so the four write-backs fill the array.
-/
import proofs.«173514_j4612794876168_1_alg».proof.Proof.TileToArray
import proofs.«173514_j4612794876168_1_alg».proof.Proof.TileValue
import proofs.«173514_j4612794876168_1_alg».proof.Proof.ConvSpec
import Idealize.ShloMosaic.Lib.Pipeline.Value
import Idealize.ShloMosaic.Lib.ValueIdx

noncomputable section

namespace Cert.KernelIdeal.NewCache

open Idealize.ShloMosaic Idealize.ShloMosaic.TcCoe Idealize.ShloMosaic.ValueIdx Idealize.SL.Sem
open Cert.KernelIdeal Cert.KernelIdeal.Gen Cert.KernelIdeal.Body Cert.KernelIdeal.TileToArray
open Idealize.ShloMosaic.Pipeline (Dat)

variable (m : (ℓ : Loc nD τ sig) → Buf (Elt Ideal) ℓ)

/-- The specification's new cache of the input on core `c`, as contents of the array the window writes. -/
abbrev specCache (c : Dev nD) : Buf (Elt Ideal) ((c : Thread nD τ).loc main_v0_3) :=
  Cert.ConvSpec.resCache (argX m c)

/-- The window's block index at point t: the batch t / 8 on the first axis, nothing on the other two. -/
theorem blockIndex : ∀ t : Fin cfg0.N, win0_6.index t (0 : Fin 3) = t.val / 8
    ∧ win0_6.index t (1 : Fin 3) = 0 ∧ win0_6.index t (2 : Fin 3) = 0 :=
  (by decide +kernel : ∀ t : Fin grid0.N, win0_6.index t (0 : Fin 3) = t.val / 8
    ∧ win0_6.index t (1 : Fin 3) = 0 ∧ win0_6.index t (2 : Fin 3) = 0)

/-- At a batch's last tile, the last four rows of the tile, transposed, are the specification's new cache
    of that batch: tile row 252 + j at tile 7 is sequence row 2044 + j. -/
theorem lastRows_apply (c : Dev nD) (t : Fin cfg0.N) (h7 : t.val % 8 = 7) (d : Fin 8192) (j : Fin 4) :
    k0_pay4 (F := Ideal) (k0_pay6 (iblk m c 0 t : Vec Ideal S1x256x8192 .f32)) (ix3 (0 : Fin 1) d j)
      = Cert.ConvSpec.resCache (argX m c) (ix3 (⟨t.val / 8, batch_lt t⟩ : Fin 4) d j) := by
  have hj : j.val < 4 := j.isLt
  refine (Cert.TileValue.pay4_pay6_apply (iblk m c 0 t) d j).trans ?_
  refine (xtile_apply m c t (⟨252 + j.val, by omega⟩ : Fin 256) d).trans ?_
  show argX m c _ = argX m c _
  refine congrArg (argX m c) (funext fun a => Fin.ext ?_)
  match a with
  | ⟨0, _⟩ => rfl
  | ⟨1, _⟩ => show 256 * (t.val % 8) + (252 + j.val) = 2044 + j.val; omega
  | ⟨2, _⟩ => rfl

/-- What a point that writes the window back writes is its block of the specification's new cache. -/
theorem flushed_eq_6 (c : Dev nD) (t : Fin cfg0.N) (hf : (cfg0.win 6).flush t = true) :
    (dats m 0 c).flushed 6 t = ((cfg0.win 6).blk t).view.read (Elt Ideal) (specCache m c) := by
  have h7 : t.val % 8 = 7 := (flush0_6 t).mp hf
  obtain ⟨e0, e1, e2⟩ := blockIndex t
  show (cfg0.win 6).cut (grid0.coords t) ((dats m 0 c).after 6 t) = _
  rw [after0_6]
  funext y
  rw [View.read_apply]
  have hy0 : (y 0).val < 1 := (y 0).isLt
  have hy1 : (y 1).val < 8192 := (y 1).isLt
  have hy2 : (y 2).val < 4 := (y 2).isLt
  have hy : (y : S1x8192x4.Idx) = ix3 (0 : Fin 1) (⟨(y 1).val, hy1⟩ : Fin 8192) (⟨(y 2).val, hy2⟩ : Fin 4) := by
    funext a
    match a with
    | ⟨0, _⟩ => exact Fin.ext (by show (y 0).val = 0; omega)
    | ⟨1, _⟩ => rfl
    | ⟨2, _⟩ => rfl
  have hi : (((cfg0.win 6).blk t).view.emb y : S4x8192x4.Idx)
      = ix3 (⟨t.val / 8, batch_lt t⟩ : Fin 4) (⟨(y 1).val, hy1⟩ : Fin 8192) (⟨(y 2).val, hy2⟩ : Fin 4) := by
    funext a
    apply Fin.ext
    match a with
    | ⟨0, _⟩ => show win0_6.index t (0 : Fin 3) * 1 + 1 * (y 0).val = t.val / 8; omega
    | ⟨1, _⟩ => show win0_6.index t (1 : Fin 3) * 8192 + 1 * (y 1).val = (y 1).val; omega
    | ⟨2, _⟩ => show win0_6.index t (2 : Fin 3) * 4 + 1 * (y 2).val = (y 2).val; omega
  show k0_pay4 (F := Ideal) (k0_pay6 (iblk m c 0 t : Vec Ideal S1x256x8192 .f32)) (y : S1x8192x4.Idx)
    = Cert.ConvSpec.resCache (argX m c) (((cfg0.win 6).blk t).view.emb y)
  exact (congrArg (k0_pay4 (F := Ideal) (k0_pay6 (iblk m c 0 t : Vec Ideal S1x256x8192 .f32))) hy).trans
    ((lastRows_apply m c t h7 ⟨(y 1).val, hy1⟩ ⟨(y 2).val, hy2⟩).trans
      (congrArg (Cert.ConvSpec.resCache (argX m c)) hi.symm))

/-- An index of the array lies in point t's block when each coordinate lies in the block's range on its axis. -/
theorem mem_block (t : Fin cfg0.N) (i : S4x8192x4.Idx) :
    i ∈ ((cfg0.win 6).blk t).view.set ↔ ∀ a : Fin 3, win0_6.index t a * S1x8192x4.size a ≤ (i a).val
      ∧ (i a).val < win0_6.index t a * S1x8192x4.size a + S1x8192x4.size a := by
  show i ∈ ((View.whole main_v0_3).slice (win0_6.rect t)).set ↔ _
  rw [View.set_slice_whole, Rect.mem_set_unit]
  exact Iff.rfl

/-- Every (b, d, j) lies in the block of the point 8·b + 7, batch b's last tile, which writes the window back. -/
theorem cover_6 (i : S4x8192x4.Idx) :
    ∃ t : Fin cfg0.N, (cfg0.win 6).flush t = true ∧ i ∈ ((cfg0.win 6).blk t).view.set := by
  have hi0 : (i 0).val < 4 := (i 0).isLt
  have hi1 : (i 1).val < 8192 := (i 1).isLt
  have hi2 : (i 2).val < 4 := (i 2).isLt
  have hN : cfg0.N = 32 := N_0
  obtain ⟨t, ht⟩ : ∃ t : Fin cfg0.N, t.val = 8 * (i 0).val + 7 := ⟨⟨8 * (i 0).val + 7, by rw [hN]; omega⟩, rfl⟩
  obtain ⟨e0, e1, e2⟩ := blockIndex t
  refine ⟨t, (flush0_6 t).mpr (by omega), ?_⟩
  rw [mem_block]
  intro a
  match a with
  | ⟨0, _⟩ =>
    show win0_6.index t (0 : Fin 3) * 1 ≤ (i 0).val ∧ (i 0).val < win0_6.index t (0 : Fin 3) * 1 + 1
    omega
  | ⟨1, _⟩ =>
    show win0_6.index t (1 : Fin 3) * 8192 ≤ (i 1).val ∧ (i 1).val < win0_6.index t (1 : Fin 3) * 8192 + 8192
    omega
  | ⟨2, _⟩ =>
    show win0_6.index t (2 : Fin 3) * 4 ≤ (i 2).val ∧ (i 2).val < win0_6.index t (2 : Fin 3) * 4 + 4
    omega

/-- The new-cache array after the run is the specification's new cache of the input. -/
theorem final6 (c : Dev nD) : (dats m 0 c).arrAt 6 cfg0.N = Cert.ConvSpec.resCache (argX m c) :=
  (dats m 0 c).arrAt_eq_of_cover 6 (specCache m c) (fun t hf => flushed_eq_6 m c t hf) cover_6

end Cert.KernelIdeal.NewCache

end
-- ==== Proof.KValue.lean ====
/-
  The idealized kernel's run, read as values. The frame run ends with every array of the pipeline at what the
  write-backs leave; for the four result windows that is, block by block, the specification's function of the
  three argument arrays (the q, k, v bands of the activated causal convolution, and the last four sequence rows
  transposed), and the blocks tile each array. So each result array ends at that function; the argument arrays
  are input windows and end as they began.
-/
import proofs.«173514_j4612794876168_1_alg».proof.Proof.KValueQKV
import proofs.«173514_j4612794876168_1_alg».proof.Proof.KValueCache
import Idealize.ShloMosaic.Lib.Pipeline.Value

noncomputable section

namespace Cert.KernelIdeal.KValue

open Idealize.ShloMosaic Idealize.ShloMosaic.TcCoe Idealize.SL.Sem
open Idealize.ShloMosaic.Pipeline (Dat)
open Cert.KernelIdeal Cert.KernelIdeal.Gen Cert.KernelIdeal.Body Cert.KernelIdeal.TileToArray

/-- The kernel's run, read: the four result arrays end at the specification's functions of the three argument
    arrays, the arguments unchanged. -/
theorem run_value (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v0_0) = Cert.ConvSpec.resQ (argX m c) (argC m c) (argW m c)
      ∧ r.2.mem ((c.tc : Thread nD τ).loc main_v0_1) = Cert.ConvSpec.resK (argX m c) (argC m c) (argW m c)
      ∧ r.2.mem ((c.tc : Thread nD τ).loc main_v0_2) = Cert.ConvSpec.resV (argX m c) (argC m c) (argW m c)
      ∧ r.2.mem ((c.tc : Thread nD τ).loc main_v0_3) = Cert.ConvSpec.resCache (argX m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (Cert.KernelIdeal.QKV.final3 m c), ((h c).1 4).trans (Cert.KernelIdeal.QKV.final4 m c),
      ((h c).1 5).trans (Cert.KernelIdeal.QKV.final5 m c), ((h c).1 6).trans (Cert.KernelIdeal.NewCache.final6 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main (F := Ideal) m ρ)

end Cert.KernelIdeal.KValue

end
-- ==== Proof.RefValue.lean ====
/-
  The reference program's four results are the specification's four arrays.

  The reference builds, for every batch b and channel d, a sequence of 2051 positions by placing the
  cache's columns 1, 2, 3 (transposed so that the column becomes the position) before the 2048 input
  rows. Four windows of that sequence, starting at positions 0, 1, 2, 3, are each multiplied by one
  tap column of the weights (a column is spread over batch and row, so at (b, t, d) it reads w(d, k))
  and the four products are added from the left. The sum y is then multiplied by 1 / (1 + e^(-y)),
  the quotient and the exponential being the extended reals' own, and the constant's word denoting 1:
  that is y times its logistic, by the logistic's definition. The channel bands [0, 2048),
  [2048, 4096), [4096, 8192) of the product are q, k, v. The fourth result is the window of the
  sequence at positions 2047 … 2050, transposed: those positions lie past the three cache columns, so
  they are the input rows 2044 … 2047.

  Each step below reads one stage at an index with explicit coordinates; the only case split is where a
  position of the joined sequence falls, before or after the third.
-/
import proofs.«173514_j4612794876168_1_alg».proof.Proof.Gen.ReferenceIdeal.Read
import proofs.«173514_j4612794876168_1_alg».proof.Proof.ConvSpec
import Idealize.ShloMosaic.Lib.ValueIdx
import Idealize.ShloMosaic.Lib.ValueLayout
import Idealize.ShloMosaic.Lib.Pipeline.Value
import Idealize.ShloMosaic.PureOps.Ideal
import Idealize.ShloMosaic.PureOps.IdealRules

noncomputable section

namespace Cert.RefValue

open Idealize.ShloMosaic Idealize.ShloMosaic.ValueIdx
open Cert.ReferenceIdeal Cert.ReferenceIdeal.Gen Cert.ReferenceIdeal.Read Cert.ConvSpec

variable (x : FVec Ideal SX .f32) (cache : FVec Ideal SC .f32) (w : FVec Ideal SW .f32)

/-! ## The joined sequence -/

/-- The joined sequence at batch `b`, position `p`, channel `d` is the specification's padded sequence:
    a position below 3 falls in the first piece, whose entry (b, p, d) is the transposed cache slice's
    (b, d, p), the cache at column 1 + p; a position from 3 on falls in the second piece, the input at
    row p - 3. -/
theorem padded_read (b : Fin 4) (p : Fin 2051) (d : Fin 8192) :
    val_main_v2 (F := Ideal) x cache (ix3 b p d) = padded x cache b p d := by
  unfold val_main_v2 padded
  by_cases h : p.val < 3
  · rw [dif_pos h]
    rw [concatenate_pair_apply_left (t := S4x2051x8192) (s₁ := S4x3x8192) (s₂ := S4x2048x8192) (1 : Fin 3) _ _ _
      (ix3 b p d) rfl (ix3 b (⟨p.val, h⟩ : Fin 3) d)
      (fun a => match a with | ⟨0, _⟩ => rfl | ⟨1, _⟩ => rfl | ⟨2, _⟩ => rfl)]
    rw [val_main_v1_apply, val_main_v0_apply]
    congr 1
    funext a
    match a with
    | ⟨0, _⟩ => rfl
    | ⟨1, _⟩ => rfl
    | ⟨2, _⟩ => exact Fin.ext (Nat.add_comm 1 p.val)
  · rw [dif_neg h]
    have hp : p.val < 2051 := p.isLt
    rw [concatenate_pair_apply_right (t := S4x2051x8192) (s₁ := S4x3x8192) (s₂ := S4x2048x8192) (1 : Fin 3) _ _ _
      (ix3 b p d) rfl rfl (ix3 b (⟨p.val - 3, by omega⟩ : Fin 2048) d)
      (fun a => match a with
        | ⟨0, _⟩ => fun _ => rfl
        | ⟨1, _⟩ => fun hne => absurd rfl hne
        | ⟨2, _⟩ => fun _ => rfl)
      (by show p.val - 3 + 3 = p.val; omega)]

/-! ## The taps: column k of the weights, spread over batch and row, reads w(d, k) at (b, t, d) -/

theorem tap0_read (b : Fin 4) (t : Fin 2048) (d : Fin 8192) :
    val_main_v7 (F := Ideal) w (ix3 b t d) = w (ix2 d (0 : Fin 4)) := by
  rw [val_main_v7_apply, val_main_v6_apply, val_main_v4_apply, val_main_v3_apply]
  congr 1
  funext a
  match a with
  | ⟨0, _⟩ => exact Fin.ext (Nat.div_one d.val)
  | ⟨1, _⟩ => rfl

theorem tap1_read (b : Fin 4) (t : Fin 2048) (d : Fin 8192) :
    val_main_v13 (F := Ideal) w (ix3 b t d) = w (ix2 d (1 : Fin 4)) := by
  rw [val_main_v13_apply, val_main_v12_apply, val_main_v10_apply, val_main_v9_apply]
  congr 1
  funext a
  match a with
  | ⟨0, _⟩ => exact Fin.ext (Nat.div_one d.val)
  | ⟨1, _⟩ => rfl

theorem tap2_read (b : Fin 4) (t : Fin 2048) (d : Fin 8192) :
    val_main_v20 (F := Ideal) w (ix3 b t d) = w (ix2 d (2 : Fin 4)) := by
  rw [val_main_v20_apply, val_main_v19_apply, val_main_v17_apply, val_main_v16_apply]
  congr 1
  funext a
  match a with
  | ⟨0, _⟩ => exact Fin.ext (Nat.div_one d.val)
  | ⟨1, _⟩ => rfl

theorem tap3_read (b : Fin 4) (t : Fin 2048) (d : Fin 8192) :
    val_main_v27 (F := Ideal) w (ix3 b t d) = w (ix2 d (3 : Fin 4)) := by
  rw [val_main_v27_apply, val_main_v26_apply, val_main_v24_apply, val_main_v23_apply]
  congr 1
  funext a
  match a with
  | ⟨0, _⟩ => exact Fin.ext (Nat.div_one d.val)
  | ⟨1, _⟩ => rfl

/-! ## The four-tap sum -/

/-- The window starting at position k reads the joined sequence at row t + k; with the taps read as
    above, the reference's sum at (b, t, d) is the specification's, term for term and in the same
    grouping. -/
theorem conv_read (b : Fin 4) (t : Fin 2048) (d : Fin 8192) :
    val_main_v29 (F := Ideal) x cache w (ix3 b t d) = conv x cache w b t d := by
  have ht : t.val < 2048 := t.isLt
  have e0 : idx_main_v5 (ix3 b t d) = ix3 b (⟨t.val, by omega⟩ : Fin 2051) d :=
    funext fun a => match a with | ⟨0, _⟩ => rfl | ⟨1, _⟩ => rfl | ⟨2, _⟩ => rfl
  have e1 : idx_main_v11 (ix3 b t d) = ix3 b (⟨t.val + 1, by omega⟩ : Fin 2051) d :=
    funext fun a => match a with
      | ⟨0, _⟩ => rfl | ⟨1, _⟩ => Fin.ext (Nat.add_comm 1 t.val) | ⟨2, _⟩ => rfl
  have e2 : idx_main_v18 (ix3 b t d) = ix3 b (⟨t.val + 2, by omega⟩ : Fin 2051) d :=
    funext fun a => match a with
      | ⟨0, _⟩ => rfl | ⟨1, _⟩ => Fin.ext (Nat.add_comm 2 t.val) | ⟨2, _⟩ => rfl
  have e3 : idx_main_v25 (ix3 b t d) = ix3 b (⟨t.val + 3, by omega⟩ : Fin 2051) d :=
    funext fun a => match a with
      | ⟨0, _⟩ => rfl | ⟨1, _⟩ => Fin.ext (Nat.add_comm 3 t.val) | ⟨2, _⟩ => rfl
  rw [val_main_v29_apply, val_main_v22_apply, val_main_v15_apply, val_main_v8_apply, val_main_v14_apply,
    val_main_v21_apply, val_main_v28_apply, tap0_read, tap1_read, tap2_read, tap3_read,
    val_main_v5_apply, val_main_v11_apply, val_main_v18_apply, val_main_v25_apply, e0, e1, e2, e3,
    padded_read, padded_read, padded_read, padded_read]
  rfl

/-! ## The activation -/

/-- The word 0x3F800000 denotes the number 1. -/
theorem one_word : Ideal.ofBits .f32 0x3F800000#32 = 1 := IdealRules.sign_bit.ideal_onePat .f32

/-- With y the four-tap sum, the reference computes y · (1 / (1 + e^(-y))): y times the logistic of y,
    which is that quotient by definition. -/
theorem activated_read (b : Fin 4) (t : Fin 2048) (d : Fin 8192) :
    val_main_v30 (F := Ideal) x cache w (ix3 b t d) = activated x cache w b t d := by
  rw [val_main_v30_apply, val_main_call0_v5_apply, val_main_call0_v4_apply, val_main_call0_cst_0_apply,
    val_main_call0_v3_apply, val_main_call0_v2_apply, val_main_call0_cst_apply, val_main_call0_v1_apply,
    val_main_call0_v0_apply, conv_read]
  simp only [Ideal.mulf_def, Ideal.hostDivf_def, Ideal.addf_def, Ideal.hostUnary_exp_def, Ideal.hostNegf_def,
    Ideal.negf_def, Ideal.ofBits_def, one_word]
  rfl

/-! ## The three bands and the new cache, as functions of the three arrays -/

/-- q at (b, t, k) is the activated array at channel k. -/
theorem q_eq : val_main_v33 (F := Ideal) x cache w = resQ x cache w := by
  funext i
  obtain ⟨b, t, k, rfl⟩ : ∃ b t k, i = ix3 b t k := ⟨_, _, _, eq_ix3 i⟩
  have hk : k.val < 2048 := k.isLt
  have e : idx_main_v33 (ix3 b t k) = ix3 b t (⟨k.val, by omega⟩ : Fin 8192) :=
    funext fun a => match a with | ⟨0, _⟩ => rfl | ⟨1, _⟩ => rfl | ⟨2, _⟩ => rfl
  rw [val_main_v33_apply, e, activated_read]
  rfl

/-- k at (b, t, k) is the activated array at channel 2048 + k. -/
theorem k_eq : val_main_v34 (F := Ideal) x cache w = resK x cache w := by
  funext i
  obtain ⟨b, t, k, rfl⟩ : ∃ b t k, i = ix3 b t k := ⟨_, _, _, eq_ix3 i⟩
  have hk : k.val < 2048 := k.isLt
  have e : idx_main_v34 (ix3 b t k) = ix3 b t (⟨2048 + k.val, by omega⟩ : Fin 8192) :=
    funext fun a => match a with | ⟨0, _⟩ => rfl | ⟨1, _⟩ => rfl | ⟨2, _⟩ => rfl
  rw [val_main_v34_apply, e, activated_read]
  rfl

/-- v at (b, t, k) is the activated array at channel 4096 + k. -/
theorem v_eq : val_main_v35 (F := Ideal) x cache w = resV x cache w := by
  funext i
  obtain ⟨b, t, k, rfl⟩ : ∃ b t k, i = ix3 b t k := ⟨_, _, _, eq_ix3 i⟩
  have hk : k.val < 4096 := k.isLt
  have e : idx_main_v35 (ix3 b t k) = ix3 b t (⟨4096 + k.val, by omega⟩ : Fin 8192) :=
    funext fun a => match a with | ⟨0, _⟩ => rfl | ⟨1, _⟩ => rfl | ⟨2, _⟩ => rfl
  rw [val_main_v35_apply, e, activated_read]
  rfl

/-- The new cache at (b, d, j) is the joined sequence at position 2047 + j, which is past the three
    cache columns: the input at row 2047 + j - 3 = 2044 + j. -/
theorem cache_eq : val_main_v32 (F := Ideal) x cache = resCache x := by
  funext i
  obtain ⟨b, d, j, rfl⟩ : ∃ b d j, i = ix3 b d j := ⟨_, _, _, eq_ix3 i⟩
  have hj : j.val < 4 := j.isLt
  have e : idx_main_v31 (idx_main_v32 (ix3 b d j)) = ix3 b (⟨2047 + j.val, by omega⟩ : Fin 2051) d :=
    funext fun a => match a with | ⟨0, _⟩ => rfl | ⟨1, _⟩ => rfl | ⟨2, _⟩ => rfl
  rw [val_main_v32_apply, val_main_v31_apply, e, padded_read]
  unfold padded
  rw [dif_neg (by show ¬ (2047 + j.val < 3); omega)]
  show x _ = x _
  congr 1
  funext a
  match a with
  | ⟨0, _⟩ => rfl
  | ⟨1, _⟩ => exact Fin.ext (by show 2047 + j.val - 3 = 2044 + j.val; omega)
  | ⟨2, _⟩ => rfl

/-! ## The results of a run, over the reference program's memories -/

section Results
open Idealize.ShloMosaic.TcCoe Idealize.SL.Sem Idealize.ShloMosaic.StableHlo

variable (m : (ℓ : Loc Cert.ReferenceIdeal.nD Cert.ReferenceIdeal.τ Cert.ReferenceIdeal.sig) → Buf (Elt Ideal) ℓ)
  (c : Dev Cert.ReferenceIdeal.nD)

/-- The first result is q of the three argument arrays. -/
theorem res_q : Cert.ReferenceIdeal.Value.res_main_v33 (F := Ideal) m c
    = resQ (m ((c.tc : Thread nD τ).loc main_arg0)) (m ((c.tc : Thread nD τ).loc main_arg1))
        (m ((c.tc : Thread nD τ).loc main_arg2)) :=
  (val_main_v33_eq m c).trans (q_eq _ _ _)

/-- The second result is k of the three argument arrays. -/
theorem res_k : Cert.ReferenceIdeal.Value.res_main_v34 (F := Ideal) m c
    = resK (m ((c.tc : Thread nD τ).loc main_arg0)) (m ((c.tc : Thread nD τ).loc main_arg1))
        (m ((c.tc : Thread nD τ).loc main_arg2)) :=
  (val_main_v34_eq m c).trans (k_eq _ _ _)

/-- The third result is v of the three argument arrays. -/
theorem res_v : Cert.ReferenceIdeal.Value.res_main_v35 (F := Ideal) m c
    = resV (m ((c.tc : Thread nD τ).loc main_arg0)) (m ((c.tc : Thread nD τ).loc main_arg1))
        (m ((c.tc : Thread nD τ).loc main_arg2)) :=
  (val_main_v35_eq m c).trans (v_eq _ _ _)

/-- The fourth result, the transposed last four positions of the joined sequence, is the new cache of
    the input array. -/
theorem res_cache :
    (transpose S4x8192x4 [0, 2, 1] (extractStridedSlice S4x4x8192 ![0, 2047, 0] (concatenate S4x2051x8192 1 [⟨S4x3x8192, (transpose S4x3x8192 [0, 2, 1] (extractStridedSlice S4x8192x3 ![0, 0, 1] (m ((c.tc : Thread nD τ).loc main_arg1)) slices_S4x8192x4_S4x8192x3_0_0_1) transposes_S4x8192x3_S4x3x8192_0_2_1)⟩, ⟨S4x2048x8192, (m ((c.tc : Thread nD τ).loc main_arg0))⟩] concatenates_S4x3x8192_S4x2048x8192_S4x2051x8192_d1) slices_S4x2051x8192_S4x4x8192_0_2047_0) transposes_S4x4x8192_S4x8192x4_0_2_1
      : Buf (Elt Ideal) ((c.tc : Thread nD τ).loc main_v32))
    = resCache (m ((c.tc : Thread nD τ).loc main_arg0)) :=
  (val_main_v32_eq _ _).trans (cache_eq _ _)

end Results

end Cert.RefValue

end
-- ==== Proof.lean ====
/-
  A causal depthwise convolution of four taps along the sequence axis with a cache of the three most recent
  past inputs, followed by y ↦ y · σ(y), split into the channel bands q, k, v, beside the new cache (the last
  four sequence rows, transposed): the tiled kernel against the whole-array reference.

  The kernel walks a grid of 4 batches × 8 sequence tiles of 256 rows. Within a batch the tiles run in order,
  and the kernel carries the last three rows of each tile to the next in a buffer of its own; at a batch's
  first tile those three rows come from the cache instead. With them in front, a tile's 259 rows are a stretch
  of the reference's padded sequence, so the tile's four-tap sums are the reference's at the tile's rows. Both
  programs add the four products in the same order, and the kernel's logistic is, over the extended reals, the
  reference's 1 / (1 + exp (−y)) by definition: no algebraic law and no finiteness of the inputs is used.

  The three frames: the kernel's body is run once per case of its two conditionals on the tile's number (first
  tile, middle tile, last tile), with an invariant that says what the carry buffer's rows 0..2 hold between
  points; the same text serves the word-level and the idealized kernel. The reference is a straight-line host
  program: its frame is its run with the results dropped. The ideal pass rewrote nothing, so there is nothing
  to preserve. The equivalence: both programs' four results are the specification's functions (ConvSpec) of
  the three argument arrays — the kernel's block by block (TileValue, TileToArray, KValueQKV, KValueCache,
  KValue), the reference's operation by operation (RefValue).
-/
import proofs.«173514_j4612794876168_1_alg».proof.Defs
import proofs.«173514_j4612794876168_1_alg».proof.Proof.Gen.Kernel
import proofs.«173514_j4612794876168_1_alg».proof.Proof.Gen.KernelIdeal
import proofs.«173514_j4612794876168_1_alg».proof.Proof.Gen.ReferenceIdeal
import proofs.«173514_j4612794876168_1_alg».proof.Proof.Gen.ReferenceIdeal.Run
import proofs.«173514_j4612794876168_1_alg».proof.Proof.Gen.ReferenceIdeal.Read
import proofs.«173514_j4612794876168_1_alg».proof.Proof.Gen.Pre_finite_inputs
import proofs.«173514_j4612794876168_1_alg».proof.Proof.BitsBody
import proofs.«173514_j4612794876168_1_alg».proof.Proof.IdealBody
import proofs.«173514_j4612794876168_1_alg».proof.Proof.KValue
import proofs.«173514_j4612794876168_1_alg».proof.Proof.RefValue
import Idealize.ShloMosaic.Adequacy
import Idealize.ShloMosaic.Init

noncomputable section

namespace Cert.Proof.ConvClaims

open Idealize.ShloMosaic Idealize.ShloMosaic.TcCoe Idealize.SL.Sem

/-- The word-level kernel's frame: the body's three runs and the launch, at the word-level instance. -/
theorem frame_k : Cert.frame_Kernel := fun m ρ _ => Cert.Kernel.Body.frame (F := Bits) m ρ

/-- The idealized kernel's frame: the same text at the extended reals. -/
theorem frame_ki : Cert.frame_KernelIdeal := fun m ρ _ => Cert.KernelIdeal.Body.frame (F := Ideal) m ρ

/-- The reference's frame: its run with the results dropped. -/
theorem frame_ri : Cert.frame_ReferenceIdeal := fun m ρ _ =>
  (θ_run Cert.ReferenceIdeal.defs _ _).mono (fun _ h c => (h c).2.2.2.2) (Cert.ReferenceIdeal.Value.run (F := Ideal) m ρ)

/-- The ideal pass rewrote nothing: there is nothing to preserve. -/
theorem preserves : Cert.preserves_Kernel_KernelIdeal := trivial

/-- Both idealized programs end with their four results at the specification's functions of the argument arrays,
    and the argument arrays agree. -/
theorem algebraic : Cert.algebraic_KernelIdeal_ReferenceIdeal := by
  intro m ρ m' ρ' _ hagree
  refine ⟨fun c => Cert.ConvSpec.resQ (Cert.KernelIdeal.TileToArray.argX m c) (Cert.KernelIdeal.TileToArray.argC m c) (Cert.KernelIdeal.TileToArray.argW m c),
    fun c => Cert.ConvSpec.resK (Cert.KernelIdeal.TileToArray.argX m c) (Cert.KernelIdeal.TileToArray.argC m c) (Cert.KernelIdeal.TileToArray.argW m c),
    fun c => Cert.ConvSpec.resV (Cert.KernelIdeal.TileToArray.argX m c) (Cert.KernelIdeal.TileToArray.argC m c) (Cert.KernelIdeal.TileToArray.argW m c),
    fun c => Cert.ConvSpec.resCache (Cert.KernelIdeal.TileToArray.argX m c),
    Cert.KernelIdeal.KValue.run_value m ρ, ?_⟩
  refine (θ_run Cert.ReferenceIdeal.defs _ _).mono (fun _ h c => ?_) (Cert.ReferenceIdeal.Value.run (F := Ideal) m' ρ')
  obtain ⟨h0, h1, h2, h3, ha⟩ := h c
  obtain ⟨e0, e1, e2⟩ := hagree c
  refine ⟨h0.trans ?_, h1.trans ?_, h2.trans ?_, h3.trans ?_, ha⟩
  · rw [Cert.RefValue.res_q m' c, e0, e1, e2]
  · rw [Cert.RefValue.res_k m' c, e0, e1, e2]
  · rw [Cert.RefValue.res_v m' c, e0, e1, e2]
  · rw [Cert.RefValue.res_cache m' c, e0]

end Cert.Proof.ConvClaims

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  ConvClaims.frame_k, ConvClaims.frame_ki, ConvClaims.frame_ri, ConvClaims.preserves, ConvClaims.algebraic⟩

end Cert.Proof

end
